-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg4 : FVec F S128 .f32) (main_arg5 : FVec F S800000 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S800000 .f32 := Host.absf main_arg5
  let main_cst_8 : FVec F S_ .f32 := constant S_ .f32 0x7F800000#32
  let main_v25 : FVec F S800000 .f32 := broadcastInDim S800000 ![] bcast_S_S800000 main_cst_8
  let main_v26 : IVec S800000 1 := cmpf .olt main_v24 main_v25
  let main_c_9 : IVec S_ 1 := constantI S_ 1 1#1
  let main_v27 : IVec S_ 1 := (fun x v => Host.reduce IntOp.andi x v reducesTo_S800000_S_d0 h_S_) main_v26 main_c_9
  let main_v28 : IVec S_ 1 := andi main_v23 main_v27
  main_v28

def fn {F : FTy → Type} [FloatOps F] (main_arg0 : FVec F S50000x128 .f32) (main_arg1 : FVec F S128x128 .f32) (main_arg2 : FVec F S128 .f32) (main_arg3 : FVec F S128 .f32) (main_arg4 : FVec F S128 .f32) (main_arg5 : FVec F S800000 .f32) (main_arg6 : IVec S800000 32) (main_arg7 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S5000x128 : Shape := ⟨2, ![5000, 128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩

abbrev nBuf : Space → Nat
  | .hbm => 43
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S800000, .f32⟩
  | .hbm, ⟨6, _⟩ => ⟨S800000, .i32⟩
  | .hbm, ⟨7, _⟩ => ⟨S800000, .i32⟩
  | .hbm, ⟨8, _⟩ => ⟨S50000x128, .f32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S800000x128, .f32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S_, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg7_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem7_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v26) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v15) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v16) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v27) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S800000, .f32⟩
  | .hbm, ⟨6, _⟩ => ⟨S800000, .i32⟩
  | .hbm, ⟨7, _⟩ => ⟨S800000, .i32⟩
  | .hbm, ⟨8, _⟩ => ⟨S50000x128, .f32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S800000x128, .f32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x128, .f32⟩
  | .hbm, ⟨28, _⟩ => ⟨S_, .f32⟩
  | .hbm, ⟨29, _⟩ => ⟨S128, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S_, .i32⟩
  | .hbm, ⟨34, _⟩ => ⟨S_, .f32⟩
  | .hbm, ⟨35, _⟩ => ⟨S128, .f32⟩
  | .hbm, ⟨36, _⟩ => ⟨S1x128, .f32⟩
  | .hbm, ⟨37, _⟩ => ⟨S_, .f32⟩
  | .hbm, ⟨38, _⟩ => ⟨S1x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S_, .f32⟩
  | .hbm, ⟨51, _⟩ => ⟨S_, .i1⟩
  | .hbm, ⟨52, _⟩ => ⟨S_, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_cst_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_cst_1 : Ref sig .tc := ⟨.hbm, 44, rfl⟩
abbrev main_call0_v8 : Ref sig .tc := ⟨.hbm, 45, rfl⟩
abbrev main_call0_cst_2 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_cst_3 : Ref sig .tc := ⟨.hbm, 50, rfl⟩
abbrev main_call0_v12 : Ref sig .tc := ⟨.hbm, 51, rfl⟩
abbrev main_call0_cst_4 : Ref sig .tc := ⟨.hbm, 52, rfl⟩
abbrev main_call0_call0_v0 : Ref sig .tc := ⟨.hbm, 53, rfl⟩
abbrev main_call0_call0_v1 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst_4 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_call1_cst : Ref sig .tc := ⟨.hbm, 72, rfl⟩
abbrev main_call1_v0 : Ref sig .tc := ⟨.hbm, 73, rfl⟩
abbrev main_v36 : Ref sig .tc := ⟨.hbm, 74, rfl⟩
abbrev main_v37 : Ref sig .tc := ⟨.hbm, 75, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  The mathematics both programs compute, stated once over the extended reals.

  A graph-convolution layer followed by batch normalisation over the node axis, a ReLU and a residual:
  with `xw = feature · weight`, `agg[r] = Σ_{e : row e = r} w_e · xw[col e]` and `x = agg + bias`, the result is
  `feature + max(((x − μ) · (var + ε)^(-1/2)) · γ + β, 0)`, where per channel `μ = (Σ_n x) / N`.
  The two programs differ only in how they spell the variance: one as `(Σ_n x²)/N − μ²` (`outK`), the other as
  `(Σ_n (x − μ)²)/N` (`outR`). Over the reals these are one number; on the extended reals that needs every `x`
  finite, which is why the equality `outK = outR` is stated under that hypothesis elsewhere.
-/
import proofs.«131209_j3770981286190_1_alg».proof.ReferenceIdeal
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- An `a × b` array of extended reals. -/
abbrev Mat (a b : Nat) := (⟨2, ![a, b]⟩ : Shape).Idx → EReal
/-- A length-`a` vector of extended reals. -/
abbrev Vc (a : Nat) := (⟨1, ![a]⟩ : Shape).Idx → EReal

/-- The node count `N = 50000` as the float constant both programs divide by. -/
def cN : EReal := Ideal.ofBits .f32 0x47435000#32
/-- The batch-norm epsilon, the same word in both programs (never evaluated). -/
def cEps : EReal := Ideal.ofBits .f32 0x3727C5AC#32

/-- `50000.0` denotes the real `50000`. -/
theorem cN_eq : cN = ((50000 : ℝ) : EReal) := by
  unfold cN
  simp [Ideal.ofBits, Ideal.ieee, -EReal.coe_mul]; norm_num

/-- The result with the variance spelled `E[x²] − μ²`. -/
def outK (feat x : Mat 50000 128) (gamma beta : Fin 128 → EReal) (n : Fin 50000) (h : Fin 128) : EReal :=
  let mean : EReal := Ideal.div (∑ n' : Fin 50000, x (ix2 n' h)) cN
  let var : EReal := Ideal.div (∑ n' : Fin 50000, x (ix2 n' h) * x (ix2 n' h)) cN - mean * mean
  feat (ix2 n h) + max (((x (ix2 n h) - mean) * Ideal.rsqrt (var + cEps)) * gamma h + beta h) 0

/-- The result with the variance spelled `E[(x − μ)²]`. -/
def outR (feat x : Mat 50000 128) (gamma beta : Fin 128 → EReal) (n : Fin 50000) (h : Fin 128) : EReal :=
  let mean : EReal := Ideal.div (∑ n' : Fin 50000, x (ix2 n' h)) cN
  let var : EReal := Ideal.div (∑ n' : Fin 50000, (x (ix2 n' h) - mean) * (x (ix2 n' h) - mean)) cN
  feat (ix2 n h) + max (((x (ix2 n h) - mean) * Ideal.rsqrt (var + cEps)) * gamma h + beta h) 0

section Agg
variable [Cert.ReferenceIdeal.Facts]
open Cert.ReferenceIdeal Cert.ReferenceIdeal.Facts₀

/-- The sparse aggregation both programs apply to `xw`, as the host operations spell it: column indices wrapped
    when negative, rows of `xw` gathered (clamped), scaled by the edge weight, and summed into their row
    (an out-of-range row contributes nothing). It is carried as ONE function and never opened, except to see that it
    maps finite arrays to finite arrays. -/
def aggOf (xw : Mat 50000 128) (ew : Vc 800000) (er ec : IVec S800000 32) : Mat 50000 128 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 er)
    (mulf (F := Ideal) (broadcastInDim S800000x128 ![0, 1] bcast_S800000x1_S800000x128_0_1 (broadcastInDim S800000x1 ![0] bcast_S800000_S800000x1_0 ew))
      (Host.gather gather_S50000x128_S800000x1_S800000x128_1_0_n_n_0_1_1128 xw
        (broadcastInDim S800000x1 ![0] bcast_S800000_S800000x1_0
          (select (cmpi .slt ec (broadcastInDim S800000 ![] bcast_S_S800000 (constantI S_ 32 0#32)))
            (addi ec (broadcastInDim S800000 ![] bcast_S_S800000 (constantI S_ 32 50000#32))) ec))))

/-- `x = agg + bias`: the array batch normalisation is applied to. -/
def xOf (feat : Mat 50000 128) (w : Mat 128 128) (bias : Vc 128) (ew : Vc 800000) (er ec : IVec S800000 32) : Mat 50000 128 :=
  fun j => aggOf (Host.dotGeneral (F := Ideal) (φ₁ := .f32) (φ₂ := .f32) dot_S50000x128_S128x128_S50000x128_1_0_0_1_n_n none feat w) ew er ec j + bias (ix1 (j 1))

end Agg

end Cert.Spec

end
-- ==== Proof.Law.lean ====
/-
  The one algebraic law between the two programs: over finite data the two spellings of the variance agree.
-/
import proofs.«131209_j3770981286190_1_alg».proof.Proof.Spec
import Mathlib.Algebra.BigOperators.Ring.Finset
import Mathlib.Algebra.BigOperators.Field
import Mathlib.Data.EReal.Operations
import Mathlib.Tactic.FieldSimp
import Mathlib.Tactic.Ring

set_option maxRecDepth 16384

noncomputable section

open scoped BigOperators

namespace Cert.Spec

open Idealize.ShloMosaic Idealize.ShloMosaic.ValueIdx Idealize.SL.Sem

/-- A finite sum of real numbers (coerced) is a real number (coerced). -/
theorem sum_coe_real {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := ih (fun i hi => hf i (Finset.mem_insert_of_mem hi))
    obtain ⟨q, hq⟩ := hf a (Finset.mem_insert_self a s)
    exact ⟨q + r, by rw [Finset.sum_insert ha, hq, hr, EReal.coe_add]⟩

/-- The coercion of the reals into the extended reals commutes with finite sums. -/
theorem coe_finsum {ι : Type} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- The textbook identity `E[r²] − (E r)² = E[(r − E r)²]` over a finite index set of `N ≠ 0` elements, with each
    division by `N` spelled as a multiplication by `1 / N`: expanding the square under the sum gives
    `Σ r² − 2 μ Σ r + N μ²`, and `μ = (Σ r)/N`. -/
theorem real_var_identity {ι : Type} [Fintype ι] (r : ι → ℝ) (N : ℝ) (hcard : (Fintype.card ι : ℝ) = N) (hN : N ≠ 0) :
    (∑ i, r i * r i) * (1 / N) - (∑ i, r i) * (1 / N) * ((∑ i, r i) * (1 / N))
      = (∑ i, (r i - (∑ i, r i) * (1 / N)) * (r i - (∑ i, r i) * (1 / N))) * (1 / N) := by
  set S : ℝ := ∑ i, r i with hS
  set Q : ℝ := ∑ i, r i * r i with hQ
  have hexp : ∑ i, (r i - S * (1 / N)) * (r i - S * (1 / N))
      = Q - 2 * (S * (1 / N)) * S + N * ((S * (1 / N)) * (S * (1 / N))) := by
    have h1 : ∀ i, (r i - S * (1 / N)) * (r i - S * (1 / N))
        = r i * r i - 2 * (S * (1 / N)) * r i + (S * (1 / N)) * (S * (1 / N)) := fun i => by ring
    simp only [h1]
    rw [Finset.sum_add_distrib, Finset.sum_sub_distrib, ← Finset.mul_sum, Finset.sum_const, Finset.card_univ,
      nsmul_eq_mul, hcard]
  rw [hexp]
  field_simp
  ring

/-- With every entry finite, the two variances are the same extended real. -/
theorem var_eq (x : Mat 50000 128) (hx : ∀ j, ∃ r : ℝ, x j = (r : EReal)) (h : Fin 128) :
    Ideal.div (∑ n' : Fin 50000, x (ix2 n' h) * x (ix2 n' h)) cN
        - Ideal.div (∑ n' : Fin 50000, x (ix2 n' h)) cN * Ideal.div (∑ n' : Fin 50000, x (ix2 n' h)) cN
      = Ideal.div (∑ n' : Fin 50000, (x (ix2 n' h) - Ideal.div (∑ n' : Fin 50000, x (ix2 n' h)) cN)
          * (x (ix2 n' h) - Ideal.div (∑ n' : Fin 50000, x (ix2 n' h)) cN)) cN := by
  choose r hr using hx
  have hx' : ∀ n' : Fin 50000, x (ix2 n' h) = ((r (ix2 n' h) : ℝ) : EReal) := fun n' => hr _
  have h50 : (50000 : ℝ) ≠ 0 := by norm_num
  simp only [hx', cN_eq, Ideal.div_coe h50, ← EReal.coe_mul, coe_finsum, ← EReal.coe_sub]
  rw [EReal.coe_eq_coe_iff]
  exact real_var_identity (fun n' : Fin 50000 => r (ix2 n' h)) 50000 (by rw [Fintype.card_fin]; norm_num) h50

/-- With every entry of `x` finite, `(Σ x²)/N − μ²` and `(Σ (x − μ)²)/N` are the same real number, so the two results agree. -/
theorem outK_eq_outR (feat x : Mat 50000 128) (gamma beta : Fin 128 → EReal)
    (hx : ∀ j, ∃ r : ℝ, x j = (r : EReal)) (n : Fin 50000) (h : Fin 128) :
    outK feat x gamma beta n h = outR feat x gamma beta n h := by
  unfold outK outR
  simp only []
  rw [var_eq x hx h]

end Cert.Spec

end
-- ==== Proof.Finite.lean ====
/-
  Finiteness: under the precondition every float input is a real number, and so is every entry of `x = agg + bias`.
-/
import proofs.«131209_j3770981286190_1_alg».proof.Defs
import proofs.«131209_j3770981286190_1_alg».proof.Proof.Gen.KernelIdeal
import proofs.«131209_j3770981286190_1_alg».proof.Proof.Gen.ReferenceIdeal
import proofs.«131209_j3770981286190_1_alg».proof.Proof.Gen.Pre_finite_inputs
import proofs.«131209_j3770981286190_1_alg».proof.Proof.Spec
import proofs.«131209_j3770981286190_1_alg».proof.Proof.Law
import Idealize.ShloMosaic.Lib.ReduceAll

set_option maxRecDepth 16384

noncomputable section

open scoped BigOperators

namespace Cert.Spec

open Idealize.ShloMosaic Idealize.ShloMosaic.ValueIdx Idealize.SL.Sem

/-- A rank-0 array has one index. -/
instance subsingleton_scalar_idx : Subsingleton Cert.Pre_finite_inputs.S_.Idx :=
  ⟨fun a b => funext fun d => d.elim0⟩

/-- The word `0x7F800000` denotes `+∞`. -/
theorem ofBits_inf_f32 : Ideal.ofBits .f32 0x7F800000#32 = ⊤ := by simp [Ideal.ofBits, Ideal.ieee]

/-- An extended real whose absolute value `max x (−x)` is strictly below `+∞` is neither infinity: it is a real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  change Ideal.cmp .olt (max x (-x)) (Ideal.ofBits .f32 0x7F800000#32) = 1#1 at h
  rw [ofBits_inf_f32] at h
  unfold Ideal.cmp at h
  induction x using EReal.rec with
  | bot => simp at h
  | coe r => exact ⟨r, rfl⟩
  | top => simp at h

/-- The precondition says each float input is everywhere strictly between the infinities: a real number. -/
theorem finite_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ j, ∃ r : ℝ, (m ((c.tc : Thread Cert.KernelIdeal.nD Cert.KernelIdeal.τ).loc Cert.KernelIdeal.main_arg0) : Cert.KernelIdeal.S50000x128.Idx → EReal) j = (r : EReal))
    ∧ (∀ j, ∃ r : ℝ, (m ((c.tc : Thread Cert.KernelIdeal.nD Cert.KernelIdeal.τ).loc Cert.KernelIdeal.main_arg1) : Cert.KernelIdeal.S128x128.Idx → EReal) j = (r : EReal))
    ∧ (∀ j, ∃ r : ℝ, (m ((c.tc : Thread Cert.KernelIdeal.nD Cert.KernelIdeal.τ).loc Cert.KernelIdeal.main_arg2) : Cert.KernelIdeal.S128.Idx → EReal) j = (r : EReal))
    ∧ (∀ j, ∃ r : ℝ, (m ((c.tc : Thread Cert.KernelIdeal.nD Cert.KernelIdeal.τ).loc Cert.KernelIdeal.main_arg5) : Cert.KernelIdeal.S800000.Idx → EReal) j = (r : EReal)) := by
  have e := congrFun (hpre c) ValueIdx.ix0
  unfold Cert.Pre_finite_inputs.fn Cert.Pre_finite_inputs.fn_part1 at e
  dsimp only at e
  simp only [andi, IntOp.andi_eq_one] at e
  obtain ⟨⟨⟨⟨⟨h0, h1⟩, h2⟩, -⟩, -⟩, h5⟩ := e
  exact ⟨fun j => real_of_abs_lt_inf _ (Host.reduce_andi_all _ _ _ _ _ h0 j),
    fun j => real_of_abs_lt_inf _ (Host.reduce_andi_all _ _ _ _ _ h1 j),
    fun j => real_of_abs_lt_inf _ (Host.reduce_andi_all _ _ _ _ _ h2 j),
    fun j => real_of_abs_lt_inf _ (Host.reduce_andi_all _ _ _ _ _ h5 j)⟩

/-- Sums and products of reals are reals. -/
theorem real_add {a b : EReal} (ha : ∃ r : ℝ, a = (r : EReal)) (hb : ∃ r : ℝ, b = (r : EReal)) :
    ∃ r : ℝ, a + b = (r : EReal) := by
  obtain ⟨p, rfl⟩ := ha
  obtain ⟨q, rfl⟩ := hb
  exact ⟨p + q, (EReal.coe_add p q).symm⟩

theorem real_mul {a b : EReal} (ha : ∃ r : ℝ, a = (r : EReal)) (hb : ∃ r : ℝ, b = (r : EReal)) :
    ∃ r : ℝ, a * b = (r : EReal) := by
  obtain ⟨p, rfl⟩ := ha
  obtain ⟨q, rfl⟩ := hb
  exact ⟨p * q, (EReal.coe_mul p q).symm⟩

/-- A matrix product of finite arrays is finite: each entry is a finite sum of products of entries. -/
theorem dotGeneral_real {sl sr so : Shape} {φ₁ φ₂ : FTy} (d : DotDims sl sr so) (prec : Option ContractPrecision)
    (lhs : FVec Ideal sl φ₁) (rhs : FVec Ideal sr φ₂)
    (hl : ∀ i, ∃ r : ℝ, (lhs i : EReal) = (r : EReal)) (hr : ∀ i, ∃ r : ℝ, (rhs i : EReal) = (r : EReal)) (j : so.Idx) :
    ∃ r : ℝ, (Host.dotGeneral (F := Ideal) d prec lhs rhs j : EReal) = (r : EReal) := by
  show ∃ r : ℝ, (FloatOps.dotGeneral d prec .single lhs rhs j : EReal) = (r : EReal)
  rw [Ideal.dotGeneral_apply]
  exact sum_coe_real _ _ fun k _ => real_mul (hl _) (hr _)

/-- A gather returns entries of its operand, so a gather of a finite array is finite. -/
theorem gather_real {s si t : Shape} {w : Nat} (d : GatherDims s si t) (x : s.Idx → EReal) (idx : IVec si w)
    (hx : ∀ i, ∃ r : ℝ, x i = (r : EReal)) (j : t.Idx) : ∃ r : ℝ, Host.gather d x idx j = (r : EReal) :=
  hx (d.operandIdx j idx)

/-- A broadcast returns entries of its operand, so a broadcast of a finite array is finite. -/
theorem bcast_real {s : Shape} (t : Shape) (dims : Fin s.rank → Fin t.rank) (h : s.BroadcastsInDim t dims) (x : s.Idx → EReal)
    (hx : ∀ i, ∃ r : ℝ, x i = (r : EReal)) (j : t.Idx) : ∃ r : ℝ, broadcastInDim t dims h x j = (r : EReal) :=
  hx _

/-- A pointwise product of finite arrays is finite. -/
theorem mulf_real {s : Shape} {φ : FTy} (a b : FVec Ideal s φ) (ha : ∀ i, ∃ r : ℝ, (a i : EReal) = (r : EReal))
    (hb : ∀ i, ∃ r : ℝ, (b i : EReal) = (r : EReal)) (i : s.Idx) : ∃ r : ℝ, (mulf a b i : EReal) = (r : EReal) := by
  rw [mulf_apply]
  exact real_mul (ha i) (hb i)

/-- An accumulating scatter of finite updates into a finite array is finite: each entry is the operand's plus a
    finite sum of updates (whichever land on it). -/
theorem scatterAdd_real {s si su : Shape} {φ : FTy} {w : Nat} (d : ScatterDims s si su) (x : FVec Ideal s φ) (idx : IVec si w)
    (upd : FVec Ideal su φ) (hx : ∀ i, ∃ r : ℝ, (x i : EReal) = (r : EReal)) (hu : ∀ k, ∃ r : ℝ, (upd k : EReal) = (r : EReal))
    (i : s.Idx) : ∃ r : ℝ, (Host.scatterAdd (F := Ideal) d x idx upd i : EReal) = (r : EReal) := by
  show ∃ r : ℝ, Ideal.hostScatterAdd d x idx upd i = (r : EReal)
  unfold Ideal.hostScatterAdd
  exact real_add (hx i) (sum_coe_real _ _ fun k _ => hu k)

/-- The zero constant is the real `0`. -/
theorem zero_const_real {s : Shape} (i : s.Idx) : ∃ r : ℝ, (constant (F := Ideal) s .f32 0x00000000#32 i : EReal) = (r : EReal) :=
  ⟨0, by rw [constant_apply, Ideal.ofBits_zero_f32]; rfl⟩

/-- Finite features, weights, bias and edge weights give a finite `x`: products and finite sums of reals are reals,
    a gathered row is a row of `xw`, and the scatter adds to zero a finite sum of the scaled rows. -/
theorem xOf_finite (feat : Mat 50000 128) (w : Mat 128 128) (bias : Vc 128) (ew : Vc 800000) (er ec : IVec Cert.ReferenceIdeal.S800000 32)
    (hf : ∀ j, ∃ r : ℝ, feat j = (r : EReal)) (hw : ∀ j, ∃ r : ℝ, w j = (r : EReal))
    (hb : ∀ j, ∃ r : ℝ, bias j = (r : EReal)) (he : ∀ j, ∃ r : ℝ, ew j = (r : EReal)) :
    ∀ j, ∃ r : ℝ, xOf feat w bias ew er ec j = (r : EReal) := by
  intro j
  unfold xOf
  refine real_add ?_ (hb _)
  unfold aggOf
  exact scatterAdd_real _ _ _ _ (bcast_real _ _ _ _ zero_const_real)
    (mulf_real _ _ (bcast_real _ _ _ _ (bcast_real _ _ _ _ he)) (gather_real _ _ _ (dotGeneral_real _ _ _ _ hf hw))) j

end Cert.Spec

end
-- ==== Proof.KNames.lean ====
/-
  Names, at their literal types, for the arrays the three regions read and write (so that arithmetic on their entries is arithmetic on extended reals).
-/
import proofs.«131209_j3770981286190_1_alg».proof.Proof.Gen.KernelIdeal.Frame
import Idealize.ShloMosaic.Lib.ValueIdx
import Idealize.ShloMosaic.PureOps.Ideal

set_option maxRecDepth 16384

noncomputable section

open scoped BigOperators

namespace Cert.KernelIdeal.KValue

open Idealize.ShloMosaic Idealize.ShloMosaic.ValueIdx Idealize.SL.Sem Idealize.ShloMosaic.TcCoe Cert.KernelIdeal Cert.KernelIdeal.Gen
variable (V : (c : Dev nD) → (b : Ref sig .tc) → Buf (Elt Ideal) ((c : Thread nD τ).loc b))

/-- The node features as a region finds them. -/
abbrev featA (c : Dev nD) : S50000x128.Idx → EReal := V c main_arg0
/-- The weight matrix as a region finds it. -/
abbrev wA (c : Dev nD) : S128x128.Idx → EReal := V c main_arg1
/-- The aggregated messages `agg`. -/
abbrev aggA (c : Dev nD) : S50000x128.Idx → EReal := V c main_v13
/-- The bias as a `1 × 128` row. -/
abbrev biasA (c : Dev nD) : S1x128.Idx → EReal := V c main_v14
/-- γ as a `1 × 128` row. -/
abbrev gammaA (c : Dev nD) : S1x128.Idx → EReal := V c main_v15
/-- β as a `1 × 128` row. -/
abbrev betaA (c : Dev nD) : S1x128.Idx → EReal := V c main_v16
/-- The per-channel mean as a `1 × 128` row. -/
abbrev meanA (c : Dev nD) : S1x128.Idx → EReal := V c main_v19
/-- The per-channel inverse standard deviation as a `1 × 128` row. -/
abbrev invA (c : Dev nD) : S1x128.Idx → EReal := V c main_v26
/-- Region 0's output array after its run. -/
abbrev out0A (c : Dev nD) : S50000x128.Idx → EReal := (dat0 (F := Ideal) V c).arrAt 2 cfg0.N
/-- Region 1's first output array (the sums) after its run. -/
abbrev sumA (c : Dev nD) : S1x128.Idx → EReal := (dat1 (F := Ideal) V c).arrAt 2 cfg1.N
/-- Region 1's second output array (the sums of squares) after its run. -/
abbrev sumsqA (c : Dev nD) : S1x128.Idx → EReal := (dat1 (F := Ideal) V c).arrAt 3 cfg1.N
/-- Region 2's output array after its run. -/
abbrev out2A (c : Dev nD) : S50000x128.Idx → EReal := (dat2 (F := Ideal) V c).arrAt 7 cfg2.N

end Cert.KernelIdeal.KValue

end
-- ==== Proof.KValue0.lean ====
/-
  Region 0 (the dense product): what the first pallas_call leaves in its output array.
-/
import proofs.«131209_j3770981286190_1_alg».proof.Proof.KNames
import proofs.«131209_j3770981286190_1_alg».proof.Proof.Gen.KernelIdeal.Frame
import proofs.«131209_j3770981286190_1_alg».proof.Proof.Gen.ReferenceIdeal
import proofs.«131209_j3770981286190_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Group.Finset.Defs

set_option maxRecDepth 16384

noncomputable section

open scoped BigOperators

namespace Cert.KernelIdeal.KValue

open Idealize.ShloMosaic Idealize.ShloMosaic.ValueIdx Idealize.SL.Sem Idealize.ShloMosaic.TcCoe Cert.KernelIdeal Cert.KernelIdeal.Gen
variable (V : (c : Dev nD) → (b : Ref sig .tc) → Buf (Elt Ideal) ((c : Thread nD τ).loc b))

/-! ## A matrix product read at an index -/

/-! ### The product of one 5000 × 128 block by the weight

Both operands are matrices, the left one contracted on its second axis and the right one on its first, so the left
index at output position `j` and contraction position `k` is `(j 0, k)` and the right index is `(k, j 1)`: one fact per
axis, stated at the literal axes. -/

theorem matmul_blk_lhs_0 (j : S5000x128.Idx) (k : dot_S5000x128_S128x128_S5000x128_1_0_0_1_n_n.contr.Idx) :
    (dot_S5000x128_S128x128_S5000x128_1_0_0_1_n_n.lhsIdx j k 0 : ℕ) = j 0 := by
  simp [DotDims.lhsIdx, dot_S5000x128_S128x128_S5000x128_1_0_0_1_n_n]; rfl
theorem matmul_blk_lhs_1 (j : S5000x128.Idx) (k : dot_S5000x128_S128x128_S5000x128_1_0_0_1_n_n.contr.Idx) :
    (dot_S5000x128_S128x128_S5000x128_1_0_0_1_n_n.lhsIdx j k 1 : ℕ) = k ⟨0, by decide⟩ :=
  DotDims.lhsIdx_val_of_single _ rfl j k
theorem matmul_blk_rhs_0 (j : S5000x128.Idx) (k : dot_S5000x128_S128x128_S5000x128_1_0_0_1_n_n.contr.Idx) :
    (dot_S5000x128_S128x128_S5000x128_1_0_0_1_n_n.rhsIdx j k 0 : ℕ) = k ⟨0, by decide⟩ :=
  DotDims.rhsIdx_val_of_single _ rfl j k
theorem matmul_blk_rhs_1 (j : S5000x128.Idx) (k : dot_S5000x128_S128x128_S5000x128_1_0_0_1_n_n.contr.Idx) :
    (dot_S5000x128_S128x128_S5000x128_1_0_0_1_n_n.rhsIdx j k 1 : ℕ) = j 1 := by
  simp [DotDims.rhsIdx, dot_S5000x128_S128x128_S5000x128_1_0_0_1_n_n]; rfl

/-! ### The product of the whole 50000 × 128 array by the weight

Both operands are matrices, the left one contracted on its second axis and the right one on its first, so the left
index at output position `j` and contraction position `k` is `(j 0, k)` and the right index is `(k, j 1)`: one fact per
axis, stated at the literal axes. -/

theorem matmul_whole_lhs_0 (j : S50000x128.Idx) (k : Cert.ReferenceIdeal.dot_S50000x128_S128x128_S50000x128_1_0_0_1_n_n.contr.Idx) :
    (Cert.ReferenceIdeal.dot_S50000x128_S128x128_S50000x128_1_0_0_1_n_n.lhsIdx j k 0 : ℕ) = j 0 := by
  simp [DotDims.lhsIdx, Cert.ReferenceIdeal.dot_S50000x128_S128x128_S50000x128_1_0_0_1_n_n]; rfl
theorem matmul_whole_lhs_1 (j : S50000x128.Idx) (k : Cert.ReferenceIdeal.dot_S50000x128_S128x128_S50000x128_1_0_0_1_n_n.contr.Idx) :
    (Cert.ReferenceIdeal.dot_S50000x128_S128x128_S50000x128_1_0_0_1_n_n.lhsIdx j k 1 : ℕ) = k ⟨0, by decide⟩ :=
  DotDims.lhsIdx_val_of_single _ rfl j k
theorem matmul_whole_rhs_0 (j : S50000x128.Idx) (k : Cert.ReferenceIdeal.dot_S50000x128_S128x128_S50000x128_1_0_0_1_n_n.contr.Idx) :
    (Cert.ReferenceIdeal.dot_S50000x128_S128x128_S50000x128_1_0_0_1_n_n.rhsIdx j k 0 : ℕ) = k ⟨0, by decide⟩ :=
  DotDims.rhsIdx_val_of_single _ rfl j k
theorem matmul_whole_rhs_1 (j : S50000x128.Idx) (k : Cert.ReferenceIdeal.dot_S50000x128_S128x128_S50000x128_1_0_0_1_n_n.contr.Idx) :
    (Cert.ReferenceIdeal.dot_S50000x128_S128x128_S50000x128_1_0_0_1_n_n.rhsIdx j k 1 : ℕ) = j 1 := by
  simp [DotDims.rhsIdx, Cert.ReferenceIdeal.dot_S50000x128_S128x128_S50000x128_1_0_0_1_n_n]; rfl

/-- What the body computes from its two loaded blocks, at row `p` and channel `q` of the block: the two narrowings
    to bf16 are identities on extended reals, the accumulator is the zero constant, so the entry is the plain sum over
    the 128 contracted positions of the products of the operands' entries. -/
theorem matmul_blk_product (x : Vec Ideal S5000x128 .f32) (w : Vec Ideal S128x128 .f32) (p : Fin 5000) (q : Fin 128) :
    (k0_pay1 (F := Ideal) x w : Vec Ideal S5000x128 .f32) (ix2 p q) = ∑ k : Fin 128, x (ix2 p k) * w (ix2 k q) := by
  unfold k0_pay1
  simp only [matmul]
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := by
    funext a; apply Fin.ext
    match a with
    | ⟨0, _⟩ => exact matmul_blk_lhs_0 _ _
    | ⟨1, _⟩ => exact (matmul_blk_lhs_1 _ _).trans hk
  have er : dot_S5000x128_S128x128_S5000x128_1_0_0_1_n_n.rhsIdx (ix2 p q) ((contrEquiv1 dot_S5000x128_S128x128_S5000x128_1_0_0_1_n_n 128 rfl rfl).symm k) = ix2 k q := by
    funext a; apply Fin.ext
    match a with
    | ⟨0, _⟩ => exact (matmul_blk_rhs_0 _ _).trans hk
    | ⟨1, _⟩ => exact matmul_blk_rhs_1 _ _
  show x (dot_S5000x128_S128x128_S5000x128_1_0_0_1_n_n.lhsIdx (ix2 p q) ((contrEquiv1 dot_S5000x128_S128x128_S5000x128_1_0_0_1_n_n 128 rfl rfl).symm k)) * w (dot_S5000x128_S128x128_S5000x128_1_0_0_1_n_n.rhsIdx (ix2 p q) ((contrEquiv1 dot_S5000x128_S128x128_S5000x128_1_0_0_1_n_n 128 rfl rfl).symm k)) = _
  rw [el, er]

/-- The same reading of the whole product: entry `(p, q)` is the sum over the 128 contracted positions of
    `x (p, k) · w (k, q)`. -/
theorem matmul_whole_product (x : Vec Ideal S50000x128 .f32) (w : Vec Ideal S128x128 .f32) (p : Fin 50000) (q : Fin 128) :
    Host.dotGeneral (F := Ideal) (φ₁ := .f32) (φ₂ := .f32) Cert.ReferenceIdeal.dot_S50000x128_S128x128_S50000x128_1_0_0_1_n_n none x w (ix2 p q) = ∑ k : Fin 128, x (ix2 p k) * w (ix2 k q) := by
  simp only [Host.dotGeneral]
  refine (Ideal.dotGeneral_apply Cert.ReferenceIdeal.dot_S50000x128_S128x128_S50000x128_1_0_0_1_n_n none _ x w (ix2 p q)).trans ?_
  rw [← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 p q) ((contrEquiv1 Cert.ReferenceIdeal.dot_S50000x128_S128x128_S50000x128_1_0_0_1_n_n 128 rfl rfl).symm k) = ix2 p k := by
    funext a; apply Fin.ext
    match a with
    | ⟨0, _⟩ => exact matmul_whole_lhs_0 _ _
    | ⟨1, _⟩ => exact (matmul_whole_lhs_1 _ _).trans hk
  have er : Cert.ReferenceIdeal.dot_S50000x128_S128x128_S50000x128_1_0_0_1_n_n.rhsIdx (ix2 p q) ((contrEquiv1 Cert.ReferenceIdeal.dot_S50000x128_S128x128_S50000x128_1_0_0_1_n_n 128 rfl rfl).symm k) = ix2 k q := by
    funext a; apply Fin.ext
    match a with
    | ⟨0, _⟩ => exact (matmul_whole_rhs_0 _ _).trans hk
    | ⟨1, _⟩ => exact matmul_whole_rhs_1 _ _
  show x (Cert.ReferenceIdeal.dot_S50000x128_S128x128_S50000x128_1_0_0_1_n_n.lhsIdx (ix2 p q) ((contrEquiv1 Cert.ReferenceIdeal.dot_S50000x128_S128x128_S50000x128_1_0_0_1_n_n 128 rfl rfl).symm k)) * w (Cert.ReferenceIdeal.dot_S50000x128_S128x128_S50000x128_1_0_0_1_n_n.rhsIdx (ix2 p q) ((contrEquiv1 Cert.ReferenceIdeal.dot_S50000x128_S128x128_S50000x128_1_0_0_1_n_n 128 rfl rfl).symm k)) = _
  rw [el, er]

/-! ## From the ten blocks to the array -/

/-- The zero offsets of a whole-block access, as the constant function. -/
theorem matmul_offsets_zero : (![0, 0] : Fin 2 → Nat) = fun _ => 0 :=
  funext fun a => by match a with | ⟨0, _⟩ => rfl | ⟨1, _⟩ => rfl

/-- The block indices at grid point `t`: the features and the output are at row block `t` (rows
    `5000·t … 5000·t + 4999`), column block `0`; the weight is always at block `(0, 0)`, the whole matrix. -/
theorem matmul_idx : ∀ t : Fin cfg0.N,
    win0_0.index t (0 : Fin 2) = t.val ∧ win0_0.index t (1 : Fin 2) = 0
  ∧ win0_1.index t (0 : Fin 2) = 0 ∧ win0_1.index t (1 : Fin 2) = 0
  ∧ win0_2.index t (0 : Fin 2) = t.val ∧ win0_2.index t (1 : Fin 2) = 0 :=
  (by decide +kernel : ∀ t : Fin grid0.N, _)

/-- What grid point `t` writes back is block `t` of the whole product: entry `(p, q)` of the output block goes to
    entry `(5000·t + p, q)` of the array; row `p` of the feature block is row `5000·t + p` of the features and the
    weight block is the weight, so the block's sum over `k` is, term by term, the whole product's sum at that entry. -/
theorem matmul_flushed (c : Dev nD) (t : Fin cfg0.N) :
    (dat0 (F := Ideal) V c).flushed 2 t
      = ((cfg0.win 2).blk t).view.read (Elt Ideal) (Host.dotGeneral (F := Ideal) (φ₁ := .f32) (φ₂ := .f32) Cert.ReferenceIdeal.dot_S50000x128_S128x128_S50000x128_1_0_0_1_n_n none (featA V c) (wA V c)) := by
  show (cfg0.win 2).cut (grid0.coords t) ((dat0 (F := Ideal) V c).after 2 t) = _
  rw [after0_2]
  unfold out0_2
  rw [View.canon_unit_zero matmul_offsets_zero]
  simp only [View.ld_unit_zero (S := S5000x128) matmul_offsets_zero, View.ld_unit_zero (S := S128x128) matmul_offsets_zero]
  obtain ⟨e00, e01, e10, e11, e20, e21⟩ := matmul_idx t
  funext j
  obtain ⟨p, q, rfl⟩ : ∃ (p : Fin 5000) (q : Fin 128), j = ix2 p q := ⟨j 0, j 1, eq_ix2 j⟩
  have hp : p.val < 5000 := p.isLt
  have hq : q.val < 128 := q.isLt
  have ht : t.val < grid0.N := t.isLt
  rw [N_0] at ht
  obtain ⟨n, hn⟩ : ∃ n : Fin 50000, n.val = 5000 * t.val + p.val := ⟨⟨5000 * t.val + p.val, by omega⟩, rfl⟩
  have hemb : ((cfg0.win 2).blk t).view.emb (ix2 p q) = ix2 n q := by
    funext a; apply Fin.ext
    match a with
    | ⟨0, _⟩ => show win0_2.index t (0 : Fin 2) * 5000 + 1 * p.val = n.val; omega
    | ⟨1, _⟩ => show win0_2.index t (1 : Fin 2) * 128 + 1 * q.val = q.val; omega
  show (k0_pay1 (F := Ideal) (iblk0 V c 0 t) (iblk0 V c 1 t) : Vec Ideal S5000x128 .f32) (ix2 p q)
      = Host.dotGeneral (F := Ideal) (φ₁ := .f32) (φ₂ := .f32) Cert.ReferenceIdeal.dot_S50000x128_S128x128_S50000x128_1_0_0_1_n_n none (featA V c) (wA V c) (((cfg0.win 2).blk t).view.emb (ix2 p q))
  rw [hemb]
  refine (matmul_blk_product _ _ p q).trans ((Finset.sum_congr rfl fun k _ => ?_).trans (matmul_whole_product _ _ n q).symm)
  have hk : k.val < 128 := k.isLt
  have h0 : (iblk0 V c 0 t : Vec Ideal S5000x128 .f32) (ix2 p k) = featA V c (ix2 n k) := by
    show V c main_arg0 (((cfg0.win 0).blk t).view.emb (ix2 p k)) = V c main_arg0 (ix2 n k)
    refine congrArg _ (funext fun a => Fin.ext ?_)
    match a with
    | ⟨0, _⟩ => show win0_0.index t (0 : Fin 2) * 5000 + 1 * p.val = n.val; omega
    | ⟨1, _⟩ => show win0_0.index t (1 : Fin 2) * 128 + 1 * k.val = k.val; omega
  have h1 : (iblk0 V c 1 t : Vec Ideal S128x128 .f32) (ix2 k q) = wA V c (ix2 k q) := by
    show V c main_arg1 (((cfg0.win 1).blk t).view.emb (ix2 k q)) = V c main_arg1 (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  rw [h0, h1]

/-- An index of the array lies in point `t`'s output block iff each coordinate lies in the block's range on its axis. -/
theorem mem_matmul_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- The ten output blocks cover the array: row `r` lies in the block of point `r / 5000`, and every point writes back. -/
theorem matmul_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by show _ < grid0.N; rw [N_0]; omega⟩, rfl⟩
  obtain ⟨-, -, -, -, e20, e21⟩ := matmul_idx t
  refine ⟨t, flush0_2 t, ?_⟩
  rw [mem_matmul_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the first region, its output array is the whole product `feature · weight` of the arrays it found:
    each grid point writes 5000 rows of it, and at the ideal instance the bf16 truncations are the identity. -/
theorem matmul_value (c : Dev nD) :
    out0A V c = Host.dotGeneral (F := Ideal) (φ₁ := .f32) (φ₂ := .f32) Cert.ReferenceIdeal.dot_S50000x128_S128x128_S50000x128_1_0_0_1_n_n none
        (featA V c) (wA V c) := by
  exact (dat0 (F := Ideal) V c).arrAt_eq_of_cover 2 _ (fun t _ => matmul_flushed V c t) matmul_cover

end Cert.KernelIdeal.KValue

end
-- ==== Proof.KValue1.lean ====
/-
  Region 1 (the batch statistics): what the second pallas_call leaves in its two output arrays.

  The region walks the `50000 × 128` array `agg` in ten blocks of `5000` rows. At every point it forms `x = block + bias`
  (the `1 × 128` bias row broadcast down the block) and adds, per channel, the block's column sum of `x` to the first
  output and the column sum of `x · x` to the second; at the first point both outputs are reset to zero before that.
  The two outputs have a single `1 × 128` block, kept in place across the grid and written back after the last point
  only. Hence, by induction on the point, after position `n` the first output holds per channel the sum of the first
  `5000 · (n + 1)` rows of `x` (the second, of their squares), and after the last point the sums over all `50000` nodes.
-/
import proofs.«131209_j3770981286190_1_alg».proof.Proof.KNames
import proofs.«131209_j3770981286190_1_alg».proof.Proof.Gen.KernelIdeal.Frame
import proofs.«131209_j3770981286190_1_alg».proof.Proof.Gen.ReferenceIdeal
import proofs.«131209_j3770981286190_1_alg».proof.Proof.Spec
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

open scoped BigOperators

namespace Cert.KernelIdeal.KValue

open Idealize.ShloMosaic Idealize.ShloMosaic.ValueIdx Idealize.SL.Sem Idealize.ShloMosaic.TcCoe Cert.KernelIdeal Cert.KernelIdeal.Gen
variable (V : (c : Dev nD) → (b : Ref sig .tc) → Buf (Elt Ideal) ((c : Thread nD τ).loc b))

/-! ## What each control case leaves in the two outputs' buffers (at any float instance) -/

section Pieces
variable {F : FTy → Type} [FloatOps F]

/-- The zero offset of a whole block. -/
theorem hz2 : (![0, 0] : Fin 2 → Nat) = fun _ => 0 := funext fun a => by fin_cases a <;> rfl

/-- After a later point the first output's buffer holds the old sums plus the block's column sums. -/
theorem out_B_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S5000x128 .f32) (x1 : Vec F S1x128 .f32) (xo2 xo3 : Vec F S1x128 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  sl_unfold_words
  rw [View.canon_unit_zero hz2]
  simp only [View.readAt_eq_ld, h1.read_unread, h2.read_unread, h3.read_unread, View.ld_unit_zero (S := S5000x128) hz2, View.ld_unit_zero (S := S1x128) hz2]

/-- After a later point the second output's buffer holds the old sums of squares plus the block's column sums of squares. -/
theorem out_B_3 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S5000x128 .f32) (x1 : Vec F S1x128 .f32) (xo2 xo3 : Vec F S1x128 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  sl_unfold_words
  rw [View.canon_unit_zero hz2]
  simp only [View.readAt_eq_ld, h1.read_unread, h2.read_unread, h4.read_unread, View.ld_unit_zero (S := S5000x128) hz2, View.ld_unit_zero (S := S1x128) hz2]

/-- After the first point the first output's buffer holds zero plus the block's column sums. -/
theorem out_A_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S5000x128 .f32) (x1 : Vec F S1x128 .f32) :
    out1_A_2 c i a1 h1 a2 h2 a3 h3 a4 h4 hc x0 x1 = k1_pay4 x0 x1 k1_pay1 := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x128) hz2, View.readCov_unit_zero (S := S1x128) _ hz2]
  simp only [View.readAt_eq_ld, h1.read_unread, h2.read_unread, View.ld_unit_zero (S := S5000x128) hz2, View.ld_unit_zero (S := S1x128) hz2]

/-- After the first point the second output's buffer holds zero plus the block's column sums of squares. -/
theorem out_A_3 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S5000x128 .f32) (x1 : Vec F S1x128 .f32) :
    out1_A_3 c i a1 h1 a2 h2 a3 h3 a4 h4 hc x0 x1 = k1_pay5 x0 x1 k1_pay2 := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x128) hz2, View.readCov_unit_zero (S := S1x128) _ hz2]
  simp only [View.readAt_eq_ld, h1.read_unread, h2.read_unread, View.ld_unit_zero (S := S5000x128) hz2, View.ld_unit_zero (S := S1x128) hz2]
end Pieces

/-! ## The stored values read at an entry, over the extended reals -/

section AtIdeal

/-- An entry of `block + broadcast bias`: the block's entry plus the bias of its channel. -/
theorem pay3_apply (x0 : FVec Ideal S5000x128 .f32) (x1 : FVec Ideal S1x128 .f32) (r : Fin 5000) (h : Fin 128) :
    k1_pay3 (F := Ideal) x0 x1 (ix2 r h) = x0 (ix2 r h) + x1 (ix2 0 h) := by
  unfold k1_pay3
  exact congrArg₂ (· + ·) (congrFun (shapeCast_self x0 _) _)
    ((broadcastTo_1b_ab_apply _ _ r h).trans (congrFun (shapeCast_self x1 _) _))

/-- The column sums of a `5000 × 128` block, laid out as a `1 × 128` row: per channel the sum over the block's rows. -/
theorem colsum_apply (src : FVec Ideal S5000x128 .f32) (h : Fin 128) :
    shapeCast S1x128 (multiReduction (F := Ideal) .add [0] S128 src 0x00000000#32 reduces_S5000x128_S128 (.inl rfl) rfl)
      shapeCasts_S128_S1x128 (ix2 (0 : Fin 1) h) = ∑ r : Fin 5000, src (ix2 r h) := by
  refine (shapeCast_a_1a_apply _ _ 0 h).trans ?_
  refine (Ideal.multiReduction_add_single src _ _ _ _ (ix1 h)).trans ?_
  refine Finset.sum_congr rfl fun r _ => congrArg src ?_
  funext a; match a with | ⟨0, _⟩ => rfl | ⟨1, _⟩ => rfl

/-- The updated sums: the old entry plus the block's column sum of `x + bias`. -/
theorem pay4_apply (x0 : FVec Ideal S5000x128 .f32) (x1 xo : FVec Ideal S1x128 .f32) (h : Fin 128) :
    k1_pay4 (F := Ideal) x0 x1 xo (ix2 0 h) = xo (ix2 0 h) + ∑ r : Fin 5000, (x0 (ix2 r h) + x1 (ix2 0 h)) := by
  unfold k1_pay4
  refine congrArg₂ (· + ·) (congrFun (shapeCast_self xo _) _) ((colsum_apply _ h).trans ?_)
  exact Finset.sum_congr rfl fun r _ => pay3_apply x0 x1 r h

/-- The updated sums of squares: the old entry plus the block's column sum of `(x + bias)²`. -/
theorem pay5_apply (x0 : FVec Ideal S5000x128 .f32) (x1 xo : FVec Ideal S1x128 .f32) (h : Fin 128) :
    k1_pay5 (F := Ideal) x0 x1 xo (ix2 0 h)
      = xo (ix2 0 h) + ∑ r : Fin 5000, ((x0 (ix2 r h) + x1 (ix2 0 h)) * (x0 (ix2 r h) + x1 (ix2 0 h))) := by
  unfold k1_pay5
  refine congrArg₂ (· + ·) (congrFun (shapeCast_self xo _) _) ((colsum_apply _ h).trans ?_)
  exact Finset.sum_congr rfl fun r _ => congrArg₂ (· * ·) (pay3_apply x0 x1 r h) (pay3_apply x0 x1 r h)

/-- The reset value of the sums is zero. -/
theorem pay1_apply (j : S1x128.Idx) : k1_pay1 (F := Ideal) j = 0 := Ideal.ofBits_zero_f32
/-- The reset value of the sums of squares is zero. -/
theorem pay2_apply (j : S1x128.Idx) : k1_pay2 (F := Ideal) j = 0 := Ideal.ofBits_zero_f32

end AtIdeal

/-! ## The running contents, point by point (at any float instance) -/

section Points
variable {F : FTy → Type} [FloatOps F]
variable (W : (c : Dev nD) → (b : Ref sig .tc) → Buf (Elt F) ((c : Thread nD τ).loc b))

/-- The block of `agg` the region reads at a point. -/
abbrev xblk (c : Dev nD) (t : Fin cfg1.N) : FVec F S5000x128 .f32 := iblk1 W c 0 t
/-- The block of the bias the region reads at a point (the whole row, at every point). -/
abbrev bblk (c : Dev nD) (t : Fin cfg1.N) : FVec F S1x128 .f32 := iblk1 W c 1 t
/-- The running sums after position `n`. -/
abbrev accS (c : Dev nD) (n : ℕ) (hn : n < cfg1.N) : FVec F S1x128 .f32 := (outsAt1 W c n hn).1
/-- The running sums of squares after position `n`. -/
abbrev accQ (c : Dev nD) (n : ℕ) (hn : n < cfg1.N) : FVec F S1x128 .f32 := (outsAt1 W c n hn).2

/-- At the first point the sums restart from zero. -/
theorem accS_first (c : Dev nD) (t : Fin cfg1.N) (h0 : t.val % 10 = 0) :
    accS W c t.val t.isLt = k1_pay4 (xblk W c t) (bblk W c t) k1_pay1 := by
  unfold accS
  rw [outsAt1_A W c t h0]; dsimp only
  exact out_A_2 (F := F) c (grid1.coords t) (ms1_0 t) (hs1_0 t) (ms1_1 t) (hs1_1 t) (ms1_2 t) (hs1_2 t) (ms1_3 t) (hs1_3 t)
    ((hcond1_0 t).mpr h0) (iblk1 W c 0 t) (iblk1 W c 1 t)

/-- At the first point the sums of squares restart from zero. -/
theorem accQ_first (c : Dev nD) (t : Fin cfg1.N) (h0 : t.val % 10 = 0) :
    accQ W c t.val t.isLt = k1_pay5 (xblk W c t) (bblk W c t) k1_pay2 := by
  unfold accQ
  rw [outsAt1_A W c t h0]; dsimp only
  exact out_A_3 (F := F) c (grid1.coords t) (ms1_0 t) (hs1_0 t) (ms1_1 t) (hs1_1 t) (ms1_2 t) (hs1_2 t) (ms1_3 t) (hs1_3 t)
    ((hcond1_0 t).mpr h0) (iblk1 W c 0 t) (iblk1 W c 1 t)

/-- At a later point the sums continue from the point before. -/
theorem accS_next (c : Dev nD) (t : Fin cfg1.N) (h0 : ¬t.val % 10 = 0) :
    accS W c t.val t.isLt
      = k1_pay4 (xblk W c t) (bblk W c t) (accS W c (t.val - 1) (Nat.lt_of_le_of_lt (Nat.sub_le _ _) t.isLt)) := by
  unfold accS
  rw [outsAt1_B W c t h0]; dsimp only
  exact out_B_2 (F := F) c (grid1.coords t) (ms1_0 t) (hs1_0 t) (ms1_1 t) (hs1_1 t) (ms1_2 t) (hs1_2 t) (ms1_3 t) (hs1_3 t)
    (fun h => h0 ((hcond1_0 t).mp h)) (iblk1 W c 0 t) (iblk1 W c 1 t)
    (outsAt1 W c (t.val - 1) (Nat.lt_of_le_of_lt (Nat.sub_le _ _) t.isLt)).1
    (outsAt1 W c (t.val - 1) (Nat.lt_of_le_of_lt (Nat.sub_le _ _) t.isLt)).2

/-- At a later point the sums of squares continue from the point before. -/
theorem accQ_next (c : Dev nD) (t : Fin cfg1.N) (h0 : ¬t.val % 10 = 0) :
    accQ W c t.val t.isLt
      = k1_pay5 (xblk W c t) (bblk W c t) (accQ W c (t.val - 1) (Nat.lt_of_le_of_lt (Nat.sub_le _ _) t.isLt)) := by
  unfold accQ
  rw [outsAt1_B W c t h0]; dsimp only
  exact out_B_3 (F := F) c (grid1.coords t) (ms1_0 t) (hs1_0 t) (ms1_1 t) (hs1_1 t) (ms1_2 t) (hs1_2 t) (ms1_3 t) (hs1_3 t)
    (fun h => h0 ((hcond1_0 t).mp h)) (iblk1 W c 0 t) (iblk1 W c 1 t)
    (outsAt1 W c (t.val - 1) (Nat.lt_of_le_of_lt (Nat.sub_le _ _) t.isLt)).1
    (outsAt1 W c (t.val - 1) (Nat.lt_of_le_of_lt (Nat.sub_le _ _) t.isLt)).2

end Points

section Steps
variable {F : FTy → Type} [FloatOps F]
variable (W : (c : Dev nD) → (b : Ref sig .tc) → Buf (Elt F) ((c : Thread nD τ).loc b))

/-- The running contents depend on the position only. -/
theorem outsAt1_congr (c : Dev nD) {a b : ℕ} (e : a = b) (ha : a < cfg1.N) (hb : b < cfg1.N) :
    outsAt1 W c a ha = outsAt1 W c b hb := by subst e; rfl

/-- Position `0`: the sums are zero plus the first block's column sums. -/
theorem accS_zero (c : Dev nD) (hn : 0 < cfg1.N) :
    accS W c 0 hn = k1_pay4 (xblk W c ⟨0, hn⟩) (bblk W c ⟨0, hn⟩) k1_pay1 :=
  accS_first W c ⟨0, hn⟩ rfl
/-- Position `0`: the sums of squares are zero plus the first block's column sums of squares. -/
theorem accQ_zero (c : Dev nD) (hn : 0 < cfg1.N) :
    accQ W c 0 hn = k1_pay5 (xblk W c ⟨0, hn⟩) (bblk W c ⟨0, hn⟩) k1_pay2 :=
  accQ_first W c ⟨0, hn⟩ rfl

/-- Position `n + 1`: the sums at position `n` plus the block's column sums. -/
theorem accS_succ (c : Dev nD) (n : ℕ) (hn : n + 1 < cfg1.N) :
    accS W c (n + 1) hn = k1_pay4 (xblk W c ⟨n + 1, hn⟩) (bblk W c ⟨n + 1, hn⟩) (accS W c n (Nat.lt_of_succ_lt hn)) := by
  have hN : cfg1.N = 10 := N_1
  have hB : ¬(⟨n + 1, hn⟩ : Fin cfg1.N).val % 10 = 0 := by dsimp only; omega
  refine (accS_next W c ⟨n + 1, hn⟩ hB).trans ?_
  exact congrArg (fun z : Vec F S1x128 .f32 × Vec F S1x128 .f32 => k1_pay4 (xblk W c ⟨n + 1, hn⟩) (bblk W c ⟨n + 1, hn⟩) z.1)
    (outsAt1_congr W c (Nat.add_sub_cancel n 1) _ _)

/-- Position `n + 1`: the sums of squares at position `n` plus the block's column sums of squares. -/
theorem accQ_succ (c : Dev nD) (n : ℕ) (hn : n + 1 < cfg1.N) :
    accQ W c (n + 1) hn = k1_pay5 (xblk W c ⟨n + 1, hn⟩) (bblk W c ⟨n + 1, hn⟩) (accQ W c n (Nat.lt_of_succ_lt hn)) := by
  have hN : cfg1.N = 10 := N_1
  have hB : ¬(⟨n + 1, hn⟩ : Fin cfg1.N).val % 10 = 0 := by dsimp only; omega
  refine (accQ_next W c ⟨n + 1, hn⟩ hB).trans ?_
  exact congrArg (fun z : Vec F S1x128 .f32 × Vec F S1x128 .f32 => k1_pay5 (xblk W c ⟨n + 1, hn⟩) (bblk W c ⟨n + 1, hn⟩) z.2)
    (outsAt1_congr W c (Nat.add_sub_cancel n 1) _ _)

end Steps

/-! ## The running contents are partial sums over the nodes -/

section Sums

/-- Block `t` of `agg` starts at row `5000 · t`; the bias has one block, at the origin. -/
theorem idx1_0 : ∀ t : Fin cfg1.N, win1_0.index t 0 = t.val ∧ win1_0.index t 1 = 0 :=
  (by decide +kernel : ∀ t : Fin grid1.N, win1_0.index t 0 = t.val ∧ win1_0.index t 1 = 0)
theorem idx1_1 : ∀ t : Fin cfg1.N, win1_1.index t 0 = 0 ∧ win1_1.index t 1 = 0 :=
  (by decide +kernel : ∀ t : Fin grid1.N, win1_1.index t 0 = 0 ∧ win1_1.index t 1 = 0)

/-- An entry of the block of `agg` read at point `t` is `agg` at row `5000 · t + r`. -/
theorem xblk_apply (c : Dev nD) (t : Fin cfg1.N) (r : Fin 5000) (h : Fin 128) (hk : 5000 * t.val + r.val < 50000) :
    xblk V c t (ix2 r h) = aggA V c (ix2 ⟨5000 * t.val + r.val, hk⟩ h) := by
  unfold xblk iblk1
  rw [View.read_apply]
  show V c main_v13 _ = V c main_v13 _
  congr 1
  funext a; apply Fin.ext
  match a with
  | ⟨0, _⟩ => show win1_0.index t 0 * 5000 + 1 * r.val = 5000 * t.val + r.val; rw [(idx1_0 t).1]; omega
  | ⟨1, _⟩ => show win1_0.index t 1 * 128 + 1 * h.val = h.val; rw [(idx1_0 t).2]; omega

/-- An entry of the bias block read at any point is the bias's entry. -/
theorem bblk_apply (c : Dev nD) (t : Fin cfg1.N) (h : Fin 128) :
    bblk V c t (ix2 0 h) = biasA V c (ix2 0 h) := by
  unfold bblk iblk1
  rw [View.read_apply]
  show V c main_v14 _ = V c main_v14 _
  congr 1
  funext a; apply Fin.ext
  match a with
  | ⟨0, _⟩ => show win1_1.index t 0 * 1 + 1 * 0 = 0; rw [(idx1_1 t).1]
  | ⟨1, _⟩ => show win1_1.index t 1 * 128 + 1 * h.val = h.val; rw [(idx1_1 t).2]; omega

/-- Row `k` of `x = agg + bias` in channel `h`, as a function of a natural number (zero past the last node). -/
def xrow (c : Dev nD) (h : Fin 128) (k : ℕ) : EReal :=
  if hk : k < 50000 then aggA V c (ix2 ⟨k, hk⟩ h) + biasA V c (ix2 0 h) else 0

/-- The rows of the block read at point `t` are the rows `5000 · t + r` of `x`. -/
theorem blk_row (c : Dev nD) (t : Fin cfg1.N) (r : Fin 5000) (h : Fin 128) :
    xblk V c t (ix2 r h) + bblk V c t (ix2 0 h) = xrow V c h (5000 * t.val + r.val) := by
  have hk : 5000 * t.val + r.val < 50000 := by
    have := lt_of_lt_of_eq t.isLt (show cfg1.N = 10 from N_1); omega
  unfold xrow
  rw [dif_pos hk, xblk_apply V c t r h hk, bblk_apply V c t h]

/-- THE SUMS, POINT BY POINT: after position `n` the first output's buffer holds, per channel, the sum of the first
    `5000 · (n + 1)` rows of `x`. -/
theorem accS_eq (c : Dev nD) (h : Fin 128) (n : ℕ) : ∀ (hn : n < cfg1.N),
    accS V c n hn (ix2 0 h) = ∑ k ∈ Finset.range (5000 * (n + 1)), xrow V c h k := by
  induction n with
  | zero =>
    intro hn
    rw [accS_zero V c hn, pay4_apply, pay1_apply, zero_add, Finset.sum_range]
    refine Finset.sum_congr rfl fun r _ => ?_
    rw [blk_row V c ⟨0, hn⟩ r h]
    show xrow V c h (5000 * 0 + r.val) = _
    rw [Nat.mul_zero, Nat.zero_add]
  | succ n ih =>
    intro hn
    rw [accS_succ V c n hn, pay4_apply, ih (Nat.lt_of_succ_lt hn), show 5000 * (n + 1 + 1) = 5000 * (n + 1) + 5000 from by omega,
      Finset.sum_range_add]
    refine congrArg _ ?_
    rw [Finset.sum_range]
    exact Finset.sum_congr rfl fun r _ => by rw [blk_row V c ⟨n + 1, hn⟩ r h]

/-- THE SUMS OF SQUARES, POINT BY POINT: after position `n` the second output's buffer holds, per channel, the sum of
    the squares of the first `5000 · (n + 1)` rows of `x`. -/
theorem accQ_eq (c : Dev nD) (h : Fin 128) (n : ℕ) : ∀ (hn : n < cfg1.N),
    accQ V c n hn (ix2 0 h) = ∑ k ∈ Finset.range (5000 * (n + 1)), xrow V c h k * xrow V c h k := by
  induction n with
  | zero =>
    intro hn
    rw [accQ_zero V c hn, pay5_apply, pay2_apply, zero_add, Finset.sum_range]
    refine Finset.sum_congr rfl fun r _ => ?_
    rw [blk_row V c ⟨0, hn⟩ r h]
    show xrow V c h (5000 * 0 + r.val) * xrow V c h (5000 * 0 + r.val) = _
    rw [Nat.mul_zero, Nat.zero_add]
  | succ n ih =>
    intro hn
    rw [accQ_succ V c n hn, pay5_apply, ih (Nat.lt_of_succ_lt hn), show 5000 * (n + 1 + 1) = 5000 * (n + 1) + 5000 from by omega,
      Finset.sum_range_add]
    refine congrArg _ ?_
    rw [Finset.sum_range]
    exact Finset.sum_congr rfl fun r _ => by rw [blk_row V c ⟨n + 1, hn⟩ r h]

end Sums

/-! ## The arrays after the run -/

section Final

/-- The last point of the region's grid. -/
theorem lt9 : 9 < cfg1.N := by rw [show cfg1.N = 10 from N_1]; decide

/-- The sums after the last point, as contents of the first output array (its one block is the array). -/
abbrev sumRes (c : Dev nD) : Buf (Elt Ideal) ((c : Thread nD τ).loc main_v17_0) := accS V c 9 lt9
/-- The sums of squares after the last point, as contents of the second output array. -/
abbrev sumsqRes (c : Dev nD) : Buf (Elt Ideal) ((c : Thread nD τ).loc main_v17_1) := accQ V c 9 lt9

/-- The one write-back of the sums, at the last point, writes them: the block at the origin of the `1 × 128` array is the array. -/
theorem flushedS_eq (c : Dev nD) (t : Fin cfg1.N) (hf : (cfg1.win 2).flush t = true) :
    (dat1 V c).flushed 2 t = ((cfg1.win 2).blk t).view.read (Elt Ideal) (sumRes V c) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2]
  have hz' : (fun a => win1_2.index t1_9 a * main_v17_0.ty.shape.size a) = fun _ => 0 := funext fun a => by fin_cases a <;> decide
  exact (Memref.read_access_unit_zero (Elt Ideal) main_v17_0 hz' (fun a => by rw [congrFun hz' a]; simp) (sumRes V c)).symm

/-- The one write-back of the sums of squares, at the last point, writes them. -/
theorem flushedQ_eq (c : Dev nD) (t : Fin cfg1.N) (hf : (cfg1.win 3).flush t = true) :
    (dat1 V c).flushed 3 t = ((cfg1.win 3).blk t).view.read (Elt Ideal) (sumsqRes V c) := by
  have hN : cfg1.N = 10 := N_1
  have h9 : t.val = 9 := by have := (flush1_3 t).mp hf; have := t.isLt; omega
  obtain rfl : t = t1_9 := Fin.ext h9
  show (cfg1.win 3).cut (grid1.coords t1_9) ((dat1 V c).after 3 t1_9) = _
  rw [after1_3]
  have hz' : (fun a => win1_3.index t1_9 a * main_v17_1.ty.shape.size a) = fun _ => 0 := funext fun a => by fin_cases a <;> decide
  exact (Memref.read_access_unit_zero (Elt Ideal) main_v17_1 hz' (fun a => by rw [congrFun hz' a]; simp) (sumsqRes V c)).symm

/-- So the first output array ends holding the sums after the last point. -/
theorem sumA_eq (c : Dev nD) : sumA V c = sumRes V c :=
  (dat1 V c).arrAt_eq_of_cover 2 (sumRes V c) (flushedS_eq V c) fun i =>
    ⟨t1_9, (flush1_2 t1_9).mpr rfl, by
      show i ∈ ((View.whole main_v17_0).slice (win1_2.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_2.index t1_9 0 * win1_2.size 0 ≤ (i 0 : Nat) ∧ (i 0 : Nat) < win1_2.index t1_9 0 * win1_2.size 0 + win1_2.xsize (grid1.coords t1_9) 0
                  rw [show win1_2.index t1_9 0 * win1_2.size 0 = 0 from by decide +kernel, show win1_2.xsize (grid1.coords t1_9) 0 = 1 from by decide +kernel]; omega
      | ⟨1, _⟩ => show win1_2.index t1_9 1 * win1_2.size 1 ≤ (i 1 : Nat) ∧ (i 1 : Nat) < win1_2.index t1_9 1 * win1_2.size 1 + win1_2.xsize (grid1.coords t1_9) 1
                  rw [show win1_2.index t1_9 1 * win1_2.size 1 = 0 from by decide +kernel, show win1_2.xsize (grid1.coords t1_9) 1 = 128 from by decide +kernel]; omega⟩

/-- And the second output array ends holding the sums of squares after the last point. -/
theorem sumsqA_eq (c : Dev nD) : sumsqA V c = sumsqRes V c :=
  (dat1 V c).arrAt_eq_of_cover 3 (sumsqRes V c) (flushedQ_eq V c) fun i =>
    ⟨t1_9, (flush1_3 t1_9).mpr rfl, by
      show i ∈ ((View.whole main_v17_1).slice (win1_3.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_3.index t1_9 0 * win1_3.size 0 ≤ (i 0 : Nat) ∧ (i 0 : Nat) < win1_3.index t1_9 0 * win1_3.size 0 + win1_3.xsize (grid1.coords t1_9) 0
                  rw [show win1_3.index t1_9 0 * win1_3.size 0 = 0 from by decide +kernel, show win1_3.xsize (grid1.coords t1_9) 0 = 1 from by decide +kernel]; omega
      | ⟨1, _⟩ => show win1_3.index t1_9 1 * win1_3.size 1 ≤ (i 1 : Nat) ∧ (i 1 : Nat) < win1_3.index t1_9 1 * win1_3.size 1 + win1_3.xsize (grid1.coords t1_9) 1
                  rw [show win1_3.index t1_9 1 * win1_3.size 1 = 0 from by decide +kernel, show win1_3.xsize (grid1.coords t1_9) 1 = 128 from by decide +kernel]; omega⟩

/-- The sum of all rows of `x`, read as a sum over the nodes. -/
theorem sum_xrow (c : Dev nD) (h : Fin 128) (g : EReal → EReal) :
    ∑ k ∈ Finset.range (5000 * (9 + 1)), g (xrow V c h k)
      = ∑ n : Fin 50000, g (aggA V c (ix2 n h) + biasA V c (ix2 0 h)) := by
  rw [show 5000 * (9 + 1) = 50000 from rfl, Finset.sum_range]
  refine Finset.sum_congr rfl fun n _ => ?_
  unfold xrow
  rw [dif_pos n.isLt]

end Final

/-- After the second region, its first output holds per channel the sum over all nodes of `agg + bias`. -/
theorem stats_sum (c : Dev nD) (h : Fin 128) :
    sumA V c (ix2 0 h) = ∑ n : Fin 50000, (aggA V c (ix2 n h) + biasA V c (ix2 0 h)) := by
  rw [sumA_eq V c]
  show accS V c 9 lt9 (ix2 0 h) = _
  rw [accS_eq V c h 9 lt9]
  exact sum_xrow V c h fun x => x

/-- After the second region, its second output holds per channel the sum over all nodes of `(agg + bias)²`. -/
theorem stats_sumsq (c : Dev nD) (h : Fin 128) :
    sumsqA V c (ix2 0 h) = ∑ n : Fin 50000, ((aggA V c (ix2 n h) + biasA V c (ix2 0 h)) * (aggA V c (ix2 n h) + biasA V c (ix2 0 h))) := by
  rw [sumsqA_eq V c]
  show accQ V c 9 lt9 (ix2 0 h) = _
  rw [accQ_eq V c h 9 lt9]
  exact sum_xrow V c h fun x => x * x

end Cert.KernelIdeal.KValue

end
-- ==== Proof.KValue2.lean ====
/-
  Region 2 (normalise, ReLU, residual): what the third pallas_call leaves in its output array.
-/
import proofs.«131209_j3770981286190_1_alg».proof.Proof.KNames
import proofs.«131209_j3770981286190_1_alg».proof.Proof.Gen.KernelIdeal.Frame
import proofs.«131209_j3770981286190_1_alg».proof.Proof.Gen.ReferenceIdeal
import proofs.«131209_j3770981286190_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KValue

open Idealize.ShloMosaic Idealize.ShloMosaic.ValueIdx Idealize.SL.Sem Idealize.ShloMosaic.TcCoe Cert.KernelIdeal Cert.KernelIdeal.Gen
variable (V : (c : Dev nD) → (b : Ref sig .tc) → Buf (Elt Ideal) ((c : Thread nD τ).loc b))

/-- The zero offsets of a whole-block access, as the constant function. -/
theorem norm_offsets_zero : (![0, 0] : Fin 2 → Nat) = fun _ => 0 :=
  funext fun a => by match a with | ⟨0, _⟩ => rfl | ⟨1, _⟩ => rfl

/-- What the body computes from its seven loaded blocks, at row `p` and channel `q` of the block: the shape casts
    are identities, each `1 × 128` row is broadcast down the 5000 rows (so it is read at `(0, q)`), the arithmetic is
    pointwise, and the zero word is the number zero. Arguments in the body's own order: the block of `agg`, then
    bias, mean, inverse standard deviation, γ, β, and last the block of the features. -/
theorem norm_payload (x : Vec Ideal S5000x128 .f32) (b mu iv g be : Vec Ideal S1x128 .f32) (f : Vec Ideal S5000x128 .f32)
    (p : Fin 5000) (q : Fin 128) :
    (k2_pay1 (F := Ideal) x b mu iv g be f : Vec Ideal S5000x128 .f32) (ix2 p q)
      = f (ix2 p q) + max ((((x (ix2 p q) + b (ix2 0 q)) - mu (ix2 0 q)) * iv (ix2 0 q)) * g (ix2 0 q) + be (ix2 0 q)) 0 := by
  unfold k2_pay1
  simp only [shapeCast_self]
  simp only [addf_apply, subf_apply, mulf_apply, maximumf_apply, broadcast_apply, broadcastTo_1b_ab_apply]
  rw [Ideal.ofBits_def, Ideal.ofBits_zero_f32]

/-- The block indices at grid point `t`: the two `50000 × 128` inputs and the output are at row block `t`
    (rows `5000·t … 5000·t + 4999`), column block `0`; the five `1 × 128` rows are always at block `(0, 0)`. -/
theorem norm_idx : ∀ t : Fin cfg2.N,
    win2_0.index t (0 : Fin 2) = t.val ∧ win2_0.index t (1 : Fin 2) = 0
  ∧ win2_1.index t (0 : Fin 2) = t.val ∧ win2_1.index t (1 : Fin 2) = 0
  ∧ win2_2.index t (0 : Fin 2) = 0 ∧ win2_2.index t (1 : Fin 2) = 0
  ∧ win2_3.index t (0 : Fin 2) = 0 ∧ win2_3.index t (1 : Fin 2) = 0
  ∧ win2_4.index t (0 : Fin 2) = 0 ∧ win2_4.index t (1 : Fin 2) = 0
  ∧ win2_5.index t (0 : Fin 2) = 0 ∧ win2_5.index t (1 : Fin 2) = 0
  ∧ win2_6.index t (0 : Fin 2) = 0 ∧ win2_6.index t (1 : Fin 2) = 0
  ∧ win2_7.index t (0 : Fin 2) = t.val ∧ win2_7.index t (1 : Fin 2) = 0 :=
  (by decide +kernel : ∀ t : Fin grid2.N, _)

/-- The whole `50000 × 128` array the region writes, as one function of the arrays it found: at node `i 0` and channel
    `i 1`, the feature plus the rectified, normalised, scaled and shifted `agg + bias`. -/
def normG (c : Dev nD) : S50000x128.Idx → EReal := fun i =>
  featA V c i + max ((((aggA V c i + biasA V c (ix2 (0 : Fin 1) (i 1 : Fin 128))) - meanA V c (ix2 (0 : Fin 1) (i 1 : Fin 128))) * invA V c (ix2 (0 : Fin 1) (i 1 : Fin 128))) * gammaA V c (ix2 (0 : Fin 1) (i 1 : Fin 128))
      + betaA V c (ix2 (0 : Fin 1) (i 1 : Fin 128))) 0

/-- What grid point `t` writes back is block `t` of `normG`: the body's one store covers the whole staging block with
    the payload of the seven input blocks, and entry `(p, q)` of each `5000 × 128` input block is entry
    `(5000·t + p, q)` of its array, the very place entry `(p, q)` of the output block goes to. -/
theorem norm_flushed (c : Dev nD) (t : Fin cfg2.N) :
    (dat2 (F := Ideal) V c).flushed 7 t = ((cfg2.win 7).blk t).view.read (Elt Ideal) (normG V c) := by
  show (cfg2.win 7).cut (grid2.coords t) ((dat2 (F := Ideal) V c).after 7 t) = _
  rw [after2_7]
  unfold out2_7
  rw [View.canon_unit_zero norm_offsets_zero]
  simp only [View.ld_unit_zero (S := S5000x128) norm_offsets_zero, View.ld_unit_zero (S := S1x128) norm_offsets_zero]
  obtain ⟨e00, e01, e10, e11, e20, e21, e30, e31, e40, e41, e50, e51, e60, e61, e70, e71⟩ := norm_idx t
  funext j
  obtain ⟨p, q, rfl⟩ : ∃ (p : Fin 5000) (q : Fin 128), j = ix2 p q := ⟨j 0, j 1, eq_ix2 j⟩
  show (k2_pay1 (F := Ideal) (iblk2 V c 1 t) (iblk2 V c 2 t) (iblk2 V c 3 t) (iblk2 V c 4 t) (iblk2 V c 5 t) (iblk2 V c 6 t) (iblk2 V c 0 t) : Vec Ideal S5000x128 .f32) (ix2 p q)
      = normG V c (((cfg2.win 7).blk t).view.emb (ix2 p q))
  refine (norm_payload _ _ _ _ _ _ _ p q).trans ?_
  have hp : p.val < 5000 := p.isLt
  have hq : q.val < 128 := q.isLt
  -- the features: the input block and the output block sit at the same rows and columns
  have h0 : (iblk2 V c 0 t : Vec Ideal S5000x128 .f32) (ix2 p q) = featA V c (((cfg2.win 7).blk t).view.emb (ix2 p q)) := by
    show V c main_arg0 (((cfg2.win 0).blk t).view.emb (ix2 p q)) = V c main_arg0 (((cfg2.win 7).blk t).view.emb (ix2 p q))
    refine congrArg _ (funext fun a => Fin.ext ?_)
    match a with
    | ⟨0, _⟩ => show win2_0.index t (0 : Fin 2) * 5000 + 1 * p.val = win2_7.index t (0 : Fin 2) * 5000 + 1 * p.val; omega
    | ⟨1, _⟩ => show win2_0.index t (1 : Fin 2) * 128 + 1 * q.val = win2_7.index t (1 : Fin 2) * 128 + 1 * q.val; omega
  -- the aggregated messages: likewise
  have h1 : (iblk2 V c 1 t : Vec Ideal S5000x128 .f32) (ix2 p q) = aggA V c (((cfg2.win 7).blk t).view.emb (ix2 p q)) := by
    show V c main_v13 (((cfg2.win 1).blk t).view.emb (ix2 p q)) = V c main_v13 (((cfg2.win 7).blk t).view.emb (ix2 p q))
    refine congrArg _ (funext fun a => Fin.ext ?_)
    match a with
    | ⟨0, _⟩ => show win2_1.index t (0 : Fin 2) * 5000 + 1 * p.val = win2_7.index t (0 : Fin 2) * 5000 + 1 * p.val; omega
    | ⟨1, _⟩ => show win2_1.index t (1 : Fin 2) * 128 + 1 * q.val = win2_7.index t (1 : Fin 2) * 128 + 1 * q.val; omega
  -- the bias: a 1 × 128 row whose only block is the whole row, so entry (0, q) of the block is entry (0, q) of the row
  have h2 : (iblk2 V c 2 t : Vec Ideal S1x128 .f32) (ix2 0 q) = biasA V c (ix2 (0 : Fin 1) ((((cfg2.win 7).blk t).view.emb (ix2 p q)) 1 : Fin 128)) := by
    show V c main_v14 (((cfg2.win 2).blk t).view.emb (ix2 0 q)) = V c main_v14 _
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * q.val = win2_7.index t (1 : Fin 2) * 128 + 1 * q.val; omega
  -- the mean: a 1 × 128 row whose only block is the whole row, so entry (0, q) of the block is entry (0, q) of the row
  have h3 : (iblk2 V c 3 t : Vec Ideal S1x128 .f32) (ix2 0 q) = meanA V c (ix2 (0 : Fin 1) ((((cfg2.win 7).blk t).view.emb (ix2 p q)) 1 : Fin 128)) := by
    show V c main_v19 (((cfg2.win 3).blk t).view.emb (ix2 0 q)) = V c main_v19 _
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * q.val = win2_7.index t (1 : Fin 2) * 128 + 1 * q.val; omega
  -- the inverse standard deviation: a 1 × 128 row whose only block is the whole row, so entry (0, q) of the block is entry (0, q) of the row
  have h4 : (iblk2 V c 4 t : Vec Ideal S1x128 .f32) (ix2 0 q) = invA V c (ix2 (0 : Fin 1) ((((cfg2.win 7).blk t).view.emb (ix2 p q)) 1 : Fin 128)) := by
    show V c main_v26 (((cfg2.win 4).blk t).view.emb (ix2 0 q)) = V c main_v26 _
    refine congrArg _ (funext fun a => Fin.ext ?_)
    match a with
    | ⟨0, _⟩ => show win2_4.index t (0 : Fin 2) * 1 + 1 * 0 = 0; omega
    | ⟨1, _⟩ => show win2_4.index t (1 : Fin 2) * 128 + 1 * q.val = win2_7.index t (1 : Fin 2) * 128 + 1 * q.val; omega
  -- γ: a 1 × 128 row whose only block is the whole row, so entry (0, q) of the block is entry (0, q) of the row
  have h5 : (iblk2 V c 5 t : Vec Ideal S1x128 .f32) (ix2 0 q) = gammaA V c (ix2 (0 : Fin 1) ((((cfg2.win 7).blk t).view.emb (ix2 p q)) 1 : Fin 128)) := by
    show V c main_v15 (((cfg2.win 5).blk t).view.emb (ix2 0 q)) = V c main_v15 _
    refine congrArg _ (funext fun a => Fin.ext ?_)
    match a with
    | ⟨0, _⟩ => show win2_5.index t (0 : Fin 2) * 1 + 1 * 0 = 0; omega
    | ⟨1, _⟩ => show win2_5.index t (1 : Fin 2) * 128 + 1 * q.val = win2_7.index t (1 : Fin 2) * 128 + 1 * q.val; omega
  -- β: a 1 × 128 row whose only block is the whole row, so entry (0, q) of the block is entry (0, q) of the row
  have h6 : (iblk2 V c 6 t : Vec Ideal S1x128 .f32) (ix2 0 q) = betaA V c (ix2 (0 : Fin 1) ((((cfg2.win 7).blk t).view.emb (ix2 p q)) 1 : Fin 128)) := by
    show V c main_v16 (((cfg2.win 6).blk t).view.emb (ix2 0 q)) = V c main_v16 _
    refine congrArg _ (funext fun a => Fin.ext ?_)
    match a with
    | ⟨0, _⟩ => show win2_6.index t (0 : Fin 2) * 1 + 1 * 0 = 0; omega
    | ⟨1, _⟩ => show win2_6.index t (1 : Fin 2) * 128 + 1 * q.val = win2_7.index t (1 : Fin 2) * 128 + 1 * q.val; omega
  rw [h0, h1, h2, h3, h4, h5, h6]
  rfl

/-- An index of the array lies in point `t`'s output block iff each coordinate lies in the block's range on its axis. -/
theorem mem_norm_blk (t : Fin cfg2.N) (i : S50000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v27).slice (win2_7.rect t)).set ↔ _
  rw [View.set_slice_whole, Rect.mem_set_unit]
  exact Iff.rfl

/-- The ten output blocks cover the array: row `r` lies in the block of point `r / 5000`, and every point writes back. -/
theorem norm_cover (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, by show _ < grid2.N; rw [N_2]; omega⟩, rfl⟩
  obtain ⟨-, -, -, -, -, -, -, -, -, -, -, -, -, -, e70, e71⟩ := norm_idx t
  refine ⟨t, flush2_7 t, ?_⟩
  rw [mem_norm_blk]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 128 ≤ (i 1).val ∧ (i 1).val < win2_7.index t (1 : Fin 2) * 128 + 128; omega

/-- So after the region its output array is `normG` everywhere. -/
theorem norm_array (c : Dev nD) : out2A V c = normG V c :=
  (dat2 (F := Ideal) V c).arrAt_eq_of_cover 7 (normG V c) (fun t _ => norm_flushed V c t) norm_cover

/-- After the third region, its output array at node `n`, channel `h` is
    `feature + max((((agg + bias) − mean) · inv_std) · γ + β, 0)` of the arrays it found. -/
theorem norm_value (c : Dev nD) (n : Fin 50000) (h : Fin 128) :
    out2A V c (ix2 n h) =
      featA V c (ix2 n h)
        + max ((((aggA V c (ix2 n h) + biasA V c (ix2 0 h)) - meanA V c (ix2 0 h)) * invA V c (ix2 0 h)) * gammaA V c (ix2 0 h)
                + betaA V c (ix2 0 h)) 0 := by
  exact (congrFun (norm_array V c) (ix2 n h)).trans rfl

end Cert.KernelIdeal.KValue

end
-- ==== Proof.KHost.lean ====
/-
  The kernel program's host stretches and the fold through its regions: what each buffer that a later region
  reads holds when that region is entered, as a function of the launch memory.
-/
import proofs.«131209_j3770981286190_1_alg».proof.Proof.Gen.KernelIdeal.Frame
import proofs.«131209_j3770981286190_1_alg».proof.Proof.Gen.ReferenceIdeal
import proofs.«131209_j3770981286190_1_alg».proof.Proof.Spec
import proofs.«131209_j3770981286190_1_alg».proof.Proof.KNames
import proofs.«131209_j3770981286190_1_alg».proof.Proof.KValue0
import proofs.«131209_j3770981286190_1_alg».proof.Proof.KValue1
import proofs.«131209_j3770981286190_1_alg».proof.Proof.KValue2
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KValue

open Idealize.ShloMosaic Idealize.ShloMosaic.TcCoe Idealize.ShloMosaic.Tactic Idealize.ShloMosaic.ValueIdx
open Idealize.SL.Sem
open Cert.KernelIdeal Cert.KernelIdeal.Gen

variable (m : (ℓ : Loc nD τ sig) → Buf (Elt Ideal) ℓ) (ρ : Dev nD → PrngReg)

/-- No operation of a host stretch writes the buffer: each operation's written set is a singleton, and the
    buffer is another one. -/
local macro "not_written " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## Region 0's exit -/

/-- At region 0's exit its output holds the product of the launched features and weights. -/
theorem W1_v0 (c : Dev nD) :
    (W1 m ρ c (Proc.devRef .tc main_v0) : S50000x128.Idx → EReal)
      = Host.dotGeneral (F := Ideal) (φ₁ := .f32) (φ₂ := .f32) Cert.ReferenceIdeal.dot_S50000x128_S128x128_S50000x128_1_0_0_1_n_n none
          (m ((c : Thread nD τ).loc main_arg0) : S50000x128.Idx → EReal) (m ((c : Thread nD τ).loc main_arg1) : S128x128.Idx → EReal) :=
  (W1_arr m ρ c 2).trans (matmul_value (V0 m ρ) c)

theorem W1_arg2 (c : Dev nD) : W1 m ρ c (Proc.devRef .tc main_arg2) = m ((c : Thread nD τ).loc main_arg2) := W1_of_ne m ρ c main_arg2 (by decide)
theorem W1_arg3 (c : Dev nD) : W1 m ρ c (Proc.devRef .tc main_arg3) = m ((c : Thread nD τ).loc main_arg3) := W1_of_ne m ρ c main_arg3 (by decide)
theorem W1_arg4 (c : Dev nD) : W1 m ρ c (Proc.devRef .tc main_arg4) = m ((c : Thread nD τ).loc main_arg4) := W1_of_ne m ρ c main_arg4 (by decide)
theorem W1_arg5 (c : Dev nD) : W1 m ρ c (Proc.devRef .tc main_arg5) = m ((c : Thread nD τ).loc main_arg5) := W1_of_ne m ρ c main_arg5 (by decide)
theorem W1_arg6 (c : Dev nD) : W1 m ρ c (Proc.devRef .tc main_arg6) = m ((c : Thread nD τ).loc main_arg6) := W1_of_ne m ρ c main_arg6 (by decide)
theorem W1_arg7 (c : Dev nD) : W1 m ρ c (Proc.devRef .tc main_arg7) = m ((c : Thread nD τ).loc main_arg7) := W1_of_ne m ρ c main_arg7 (by decide)
theorem W1_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))

/-! ## The first host stretch: the sparse aggregation, and the three row vectors -/

/-- At region 1's entry the aggregated messages are the shared aggregation of region 0's product and the launched
    edge arrays. (The stretch's operations are, one for one, the ones `Cert.Spec.aggOf` composes.) -/
theorem W2_v13 (c : Dev nD) :
    (W2 m ρ c (Proc.devRef .tc main_v13) : S50000x128.Idx → EReal)
      = Cert.Spec.aggOf (W1 m ρ c (Proc.devRef .tc main_v0) : S50000x128.Idx → EReal)
          (m ((c : Thread nD τ).loc main_arg5) : S800000.Idx → EReal) (m ((c : Thread nD τ).loc main_arg6)) (m ((c : Thread nD τ).loc main_arg7)) := by
  show StableHlo.after hostOps1 (W1 m ρ c) (Proc.devRef .tc main_v13) = _
  after_results
  rw [W1_arg5, W1_arg6, W1_arg7]
  rfl

/-- The bias as a row. -/
theorem W2_v14 (c : Dev nD) :
    (W2 m ρ c (Proc.devRef .tc main_v14) : S1x128.Idx → EReal)
      = shapeCast S1x128 (m ((c : Thread nD τ).loc main_arg2) : S128.Idx → EReal) shapeCasts_S128_S1x128 := by
  show StableHlo.after hostOps1 (W1 m ρ c) (Proc.devRef .tc main_v14) = _
  after_results
  rw [W1_arg2]
  rfl
theorem W2_v15 (c : Dev nD) :
    (W2 m ρ c (Proc.devRef .tc main_v15) : S1x128.Idx → EReal)
      = shapeCast S1x128 (m ((c : Thread nD τ).loc main_arg3) : S128.Idx → EReal) shapeCasts_S128_S1x128 := by
  show StableHlo.after hostOps1 (W1 m ρ c) (Proc.devRef .tc main_v15) = _
  after_results
  rw [W1_arg3]
  rfl
theorem W2_v16 (c : Dev nD) :
    (W2 m ρ c (Proc.devRef .tc main_v16) : S1x128.Idx → EReal)
      = shapeCast S1x128 (m ((c : Thread nD τ).loc main_arg4) : S128.Idx → EReal) shapeCasts_S128_S1x128 := by
  show StableHlo.after hostOps1 (W1 m ρ c) (Proc.devRef .tc main_v16) = _
  after_results
  rw [W1_arg4]
  rfl
theorem W2_arg0 (c : Dev nD) : W2 m ρ c (Proc.devRef .tc main_arg0) = m ((c : Thread nD τ).loc main_arg0) :=
  (show StableHlo.after hostOps1 (W1 m ρ c) (Proc.devRef .tc main_arg0) = W1 m ρ c (Proc.devRef .tc main_arg0) by not_written hostOps1).trans (W1_arg0 m ρ c)

/-! ## Region 1's exit and the second host stretch -/

theorem W3_v13 (c : Dev nD) : W3 m ρ c (Proc.devRef .tc main_v13) = W2 m ρ c (Proc.devRef .tc main_v13) :=
  (W3_arr m ρ c 0).trans (((dat1 (V2 m ρ) c).arrAt_in 0 rfl _).trans (A_eq1 (V2 m ρ) c 0))
theorem W3_v14 (c : Dev nD) : W3 m ρ c (Proc.devRef .tc main_v14) = W2 m ρ c (Proc.devRef .tc main_v14) :=
  (W3_arr m ρ c 1).trans (((dat1 (V2 m ρ) c).arrAt_in 1 rfl _).trans (A_eq1 (V2 m ρ) c 1))
theorem W3_v15 (c : Dev nD) : W3 m ρ c (Proc.devRef .tc main_v15) = W2 m ρ c (Proc.devRef .tc main_v15) := W3_of_ne m ρ c main_v15 (by decide)
theorem W3_v16 (c : Dev nD) : W3 m ρ c (Proc.devRef .tc main_v16) = W2 m ρ c (Proc.devRef .tc main_v16) := W3_of_ne m ρ c main_v16 (by decide)
theorem W3_arg0 (c : Dev nD) : W3 m ρ c (Proc.devRef .tc main_arg0) = W2 m ρ c (Proc.devRef .tc main_arg0) := W3_of_ne m ρ c main_arg0 (by decide)
/-- At region 1's exit its two outputs hold what its pipeline leaves: the sums and the sums of squares. -/
theorem W3_v17_0 (c : Dev nD) : (W3 m ρ c (Proc.devRef .tc main_v17_0) : S1x128.Idx → EReal) = sumA (V2 m ρ) c := W3_arr m ρ c 2
theorem W3_v17_1 (c : Dev nD) : (W3 m ρ c (Proc.devRef .tc main_v17_1) : S1x128.Idx → EReal) = sumsqA (V2 m ρ) c := W3_arr m ρ c 3

theorem W4_arg0 (c : Dev nD) : W4 m ρ c (Proc.devRef .tc main_arg0) = W3 m ρ c (Proc.devRef .tc main_arg0) := by
  show StableHlo.after hostOps2 (W3 m ρ c) (Proc.devRef .tc main_arg0) = _
  not_written hostOps2
theorem W4_v13 (c : Dev nD) : W4 m ρ c (Proc.devRef .tc main_v13) = W3 m ρ c (Proc.devRef .tc main_v13) := by
  show StableHlo.after hostOps2 (W3 m ρ c) (Proc.devRef .tc main_v13) = _
  not_written hostOps2
theorem W4_v14 (c : Dev nD) : W4 m ρ c (Proc.devRef .tc main_v14) = W3 m ρ c (Proc.devRef .tc main_v14) := by
  show StableHlo.after hostOps2 (W3 m ρ c) (Proc.devRef .tc main_v14) = _
  not_written hostOps2
theorem W4_v15 (c : Dev nD) : W4 m ρ c (Proc.devRef .tc main_v15) = W3 m ρ c (Proc.devRef .tc main_v15) := by
  show StableHlo.after hostOps2 (W3 m ρ c) (Proc.devRef .tc main_v15) = _
  not_written hostOps2
theorem W4_v16 (c : Dev nD) : W4 m ρ c (Proc.devRef .tc main_v16) = W3 m ρ c (Proc.devRef .tc main_v16) := by
  show StableHlo.after hostOps2 (W3 m ρ c) (Proc.devRef .tc main_v16) = _
  not_written hostOps2

/-- The mean: the sums over `N`. -/
theorem W4_v19 (c : Dev nD) :
    (W4 m ρ c (Proc.devRef .tc main_v19) : S1x128.Idx → EReal)
      = Host.divf (F := Ideal) (sumA (V2 m ρ) c) (broadcastInDim S1x128 ![] bcast_S_S1x128 (constant (F := Ideal) S_ .f32 0x47435000#32)) := by
  show StableHlo.after hostOps2 (W3 m ρ c) (Proc.devRef .tc main_v19) = _
  after_results
  rw [W3_v17_0]

/-- The inverse standard deviation: `rsqrt((sumsq / N − mean · mean) + ε)`. -/
theorem W4_v26 (c : Dev nD) :
    (W4 m ρ c (Proc.devRef .tc main_v26) : S1x128.Idx → EReal)
      = Host.rsqrt (F := Ideal) (addf (F := Ideal)
          (subf (F := Ideal) (Host.divf (F := Ideal) (sumsqA (V2 m ρ) c) (broadcastInDim S1x128 ![] bcast_S_S1x128 (constant (F := Ideal) S_ .f32 0x47435000#32)))
            (mulf (F := Ideal) (Host.divf (F := Ideal) (sumA (V2 m ρ) c) (broadcastInDim S1x128 ![] bcast_S_S1x128 (constant (F := Ideal) S_ .f32 0x47435000#32)))
              (Host.divf (F := Ideal) (sumA (V2 m ρ) c) (broadcastInDim S1x128 ![] bcast_S_S1x128 (constant (F := Ideal) S_ .f32 0x47435000#32)))))
          (broadcastInDim S1x128 ![] bcast_S_S1x128 (constant (F := Ideal) S_ .f32 0x3727C5AC#32))) := by
  show StableHlo.after hostOps2 (W3 m ρ c) (Proc.devRef .tc main_v26) = _
  after_results
  rw [W3_v17_0, W3_v17_1]

/-! ## The launched arrays at their literal types, and the kernel program's result -/

/-- The launched node features. -/
abbrev a0 (c : Dev nD) : S50000x128.Idx → EReal := m ((c : Thread nD τ).loc main_arg0)
/-- The launched weights. -/
abbrev a1 (c : Dev nD) : S128x128.Idx → EReal := m ((c : Thread nD τ).loc main_arg1)
/-- The launched bias. -/
abbrev a2 (c : Dev nD) : S128.Idx → EReal := m ((c : Thread nD τ).loc main_arg2)
/-- The launched γ. -/
abbrev a3 (c : Dev nD) : S128.Idx → EReal := m ((c : Thread nD τ).loc main_arg3)
/-- The launched β. -/
abbrev a4 (c : Dev nD) : S128.Idx → EReal := m ((c : Thread nD τ).loc main_arg4)
/-- The launched edge weights. -/
abbrev a5 (c : Dev nD) : S800000.Idx → EReal := m ((c : Thread nD τ).loc main_arg5)
/-- The launched edge rows. -/
abbrev a6 (c : Dev nD) : IVec S800000 32 := m ((c : Thread nD τ).loc main_arg6)
/-- The launched edge columns. -/
abbrev a7 (c : Dev nD) : IVec S800000 32 := m ((c : Thread nD τ).loc main_arg7)
/-- The kernel program's result array at the run's last boundary. -/
abbrev resultA (c : Dev nD) : S50000x128.Idx → EReal := W5 m ρ c (Proc.devRef .tc main_v27)

/-- The aggregation of the launched arrays. -/
abbrev aggL (c : Dev nD) : S50000x128.Idx → EReal :=
  Cert.Spec.aggOf (Host.dotGeneral (F := Ideal) (φ₁ := .f32) (φ₂ := .f32) Cert.ReferenceIdeal.dot_S50000x128_S128x128_S50000x128_1_0_0_1_n_n none (a0 m c) (a1 m c)) (a5 m c) (a6 m c) (a7 m c)

theorem V2_agg (c : Dev nD) : aggA (V2 m ρ) c = aggL m c :=
  (W2_v13 m ρ c).trans (by rw [W1_v0])
theorem V4_agg (c : Dev nD) : aggA (V4 m ρ) c = aggL m c :=
  (W4_v13 m ρ c).trans ((W3_v13 m ρ c).trans (V2_agg m ρ c))
theorem V4_feat (c : Dev nD) : featA (V4 m ρ) c = a0 m c :=
  (W4_arg0 m ρ c).trans ((W3_arg0 m ρ c).trans (W2_arg0 m ρ c))

/-- A length-128 vector cast to a `1 × 128` row, read at column `h`. -/
theorem row_apply (v : S128.Idx → EReal) (h : Fin 128) : shapeCast S1x128 v shapeCasts_S128_S1x128 (ix2 0 h) = v (ix1 h) := by
  refine (shapeCast_addUnit_apply (α := EReal) ![128] v shapeCasts_S128_S1x128 (ix2 0 h)).trans (congrArg v ?_)
  funext a; match a with | ⟨0, _⟩ => rfl

theorem V2_bias (c : Dev nD) (h : Fin 128) : biasA (V2 m ρ) c (ix2 0 h) = a2 m c (ix1 h) :=
  (congrFun (W2_v14 m ρ c) (ix2 0 h)).trans (row_apply _ h)
theorem V4_bias (c : Dev nD) (h : Fin 128) : biasA (V4 m ρ) c (ix2 0 h) = a2 m c (ix1 h) :=
  (congrFun ((W4_v14 m ρ c).trans (W3_v14 m ρ c)) (ix2 0 h)).trans (V2_bias m ρ c h)
theorem V4_gamma (c : Dev nD) (h : Fin 128) : gammaA (V4 m ρ) c (ix2 0 h) = a3 m c (ix1 h) :=
  (congrFun ((W4_v15 m ρ c).trans ((W3_v15 m ρ c).trans (W2_v15 m ρ c))) (ix2 0 h)).trans (row_apply _ h)
theorem V4_beta (c : Dev nD) (h : Fin 128) : betaA (V4 m ρ) c (ix2 0 h) = a4 m c (ix1 h) :=
  (congrFun ((W4_v16 m ρ c).trans ((W3_v16 m ρ c).trans (W2_v16 m ρ c))) (ix2 0 h)).trans (row_apply _ h)

/-- The per-channel sum the second region leaves, over the launched arrays. -/
theorem sum_apply (c : Dev nD) (h : Fin 128) :
    sumA (V2 m ρ) c (ix2 0 h) = ∑ n : Fin 50000, (aggL m c (ix2 n h) + a2 m c (ix1 h)) := by
  rw [stats_sum (V2 m ρ) c h, V2_agg, V2_bias]
theorem sumsq_apply (c : Dev nD) (h : Fin 128) :
    sumsqA (V2 m ρ) c (ix2 0 h) = ∑ n : Fin 50000, ((aggL m c (ix2 n h) + a2 m c (ix1 h)) * (aggL m c (ix2 n h) + a2 m c (ix1 h))) := by
  rw [stats_sumsq (V2 m ρ) c h, V2_agg, V2_bias]

theorem V4_mean (c : Dev nD) (h : Fin 128) :
    meanA (V4 m ρ) c (ix2 0 h) = Ideal.div (∑ n : Fin 50000, (aggL m c (ix2 n h) + a2 m c (ix1 h))) Cert.Spec.cN := by
  rw [← sum_apply m ρ c h]
  exact congrFun (W4_v19 m ρ c) (ix2 0 h)
theorem V4_inv (c : Dev nD) (h : Fin 128) :
    invA (V4 m ρ) c (ix2 0 h) = Ideal.rsqrt
      ((Ideal.div (∑ n : Fin 50000, ((aggL m c (ix2 n h) + a2 m c (ix1 h)) * (aggL m c (ix2 n h) + a2 m c (ix1 h)))) Cert.Spec.cN
        - Ideal.div (∑ n : Fin 50000, (aggL m c (ix2 n h) + a2 m c (ix1 h))) Cert.Spec.cN
          * Ideal.div (∑ n : Fin 50000, (aggL m c (ix2 n h) + a2 m c (ix1 h))) Cert.Spec.cN) + Cert.Spec.cEps) := by
  rw [← sum_apply m ρ c h, ← sumsq_apply m ρ c h]
  exact congrFun (W4_v26 m ρ c) (ix2 0 h)

/-- THE KERNEL PROGRAM'S VALUE: at node `n`, channel `h` the result is `outK` of the launched features,
    `x = agg + bias`, γ and β. -/
theorem kernel_value (c : Dev nD) (n : Fin 50000) (h : Fin 128) :
    resultA m ρ c (ix2 n h)
      = Cert.Spec.outK (a0 m c) (Cert.Spec.xOf (a0 m c) (a1 m c) (a2 m c) (a5 m c) (a6 m c) (a7 m c))
          (fun h' => a3 m c (ix1 h')) (fun h' => a4 m c (ix1 h')) n h := by
  have hres : resultA m ρ c = out2A (V4 m ρ) c := W5_arr m ρ c 7
  rw [hres, norm_value (V4 m ρ) c n h, V4_feat, V4_agg, V4_bias, V4_mean, V4_inv, V4_gamma, V4_beta]
  rfl

end Cert.KernelIdeal.KValue

end
-- ==== Proof.RefRun.lean ====
/-
  The reference's run: every execution of its host program ends with the result at one composed term of the arguments.
-/
import proofs.«131209_j3770981286190_1_alg».proof.Proof.Gen.ReferenceIdeal
import proofs.«131209_j3770981286190_1_alg».proof.Proof.Spec
import Idealize.ShloMosaic.Lib.StableHlo.Run

set_option maxRecDepth 16384

noncomputable section

open scoped BigOperators

namespace Cert.ReferenceIdeal.RefRun

open Idealize.ShloMosaic Idealize.ShloMosaic.ValueIdx Idealize.SL.Sem Cert.ReferenceIdeal
open Cert.ReferenceIdeal.Facts₀ Idealize.ShloMosaic.StableHlo

section Ops
variable {F : FTy → Type} [FloatOps F]

/-- The program's 68 host operations in order: its own forty-three with the variance function's nineteen (and the three
    of the guard it calls) and the rectifier's three written out at their call sites, each over that call's buffers. -/
abbrev ops : List (HloOp τ sig (Elt F)) :=
  [ StableHlo.binary main_arg0 main_arg1 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v1 (broadcastInDim S800000x1 ![0] bcast_S800000_S800000x1_0 : (⟨S800000, .f32⟩ : BufTy).Contents (Elt F) → (⟨S800000x1, .f32⟩ : BufTy).Contents (Elt F)),
    StableHlo.nullary main_c (constantI S_ 32 0#32),
    StableHlo.unary main_c main_v2 (broadcastInDim S800000 ![] bcast_S_S800000 : (⟨S_, .i32⟩ : BufTy).Contents (Elt F) → (⟨S800000, .i32⟩ : BufTy).Contents (Elt F)),
    StableHlo.binary main_arg7 main_v2 main_v3 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v4 (broadcastInDim S800000 ![] bcast_S_S800000 : (⟨S_, .i32⟩ : BufTy).Contents (Elt F) → (⟨S800000, .i32⟩ : BufTy).Contents (Elt F)),
    StableHlo.binary main_arg7 main_v4 main_v5 (addi : (⟨S800000, .i32⟩ : BufTy).Contents (Elt F) → (⟨S800000, .i32⟩ : BufTy).Contents (Elt F) → (⟨S800000, .i32⟩ : BufTy).Contents (Elt F)),
    StableHlo.ternary main_v3 main_v5 main_arg7 main_v6 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v6 main_v7 (broadcastInDim S800000x1 ![0] bcast_S800000_S800000x1_0 : (⟨S800000, .i32⟩ : BufTy).Contents (Elt F) → (⟨S800000x1, .i32⟩ : BufTy).Contents (Elt F)),
    StableHlo.binary main_v0 main_v7 main_v8 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v1 main_v9 (broadcastInDim S800000x128 ![0, 1] bcast_S800000x1_S800000x128_0_1 : (⟨S800000x1, .f32⟩ : BufTy).Contents (Elt F) → (⟨S800000x128, .f32⟩ : BufTy).Contents (Elt F)),
    StableHlo.binary main_v9 main_v8 main_v10 (mulf : (⟨S800000x128, .f32⟩ : BufTy).Contents (Elt F) → (⟨S800000x128, .f32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_arg6 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg2 main_v14 (broadcastInDim S1x128 ![1] bcast_S128_S1x128_1 : (⟨S128, .f32⟩ : BufTy).Contents (Elt F) → (⟨S1x128, .f32⟩ : BufTy).Contents (Elt F)),
    StableHlo.unary main_v14 main_v15 (broadcastInDim S50000x128 ![0, 1] bcast_S1x128_S50000x128_0_1 : (⟨S1x128, .f32⟩ : BufTy).Contents (Elt F) → (⟨S50000x128, .f32⟩ : BufTy).Contents (Elt F)),
    StableHlo.binary main_v13 main_v15 main_v16 (addf : (⟨S50000x128, .f32⟩ : BufTy).Contents (Elt F) → (⟨S50000x128, .f32⟩ : BufTy).Contents (Elt F) → (⟨S50000x128, .f32⟩ : BufTy).Contents (Elt F)),
    StableHlo.nullary main_cst_1 (constant S_ .f32 0x00000000#32),
    StableHlo.binary main_v16 main_cst_1 main_v17 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v18 (broadcastInDim S128 ![] bcast_S_S128 : (⟨S_, .f32⟩ : BufTy).Contents (Elt F) → (⟨S128, .f32⟩ : BufTy).Contents (Elt F)),
    StableHlo.binary main_v17 main_v18 main_v19 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.nullary main_call0_cst (constant S_ .f32 0x00000000#32 : (⟨S_, .f32⟩ : BufTy).Contents (Elt F)),
    StableHlo.binary main_v16 main_call0_cst main_call0_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call0_v0 main_call0_v1 ((broadcastInDim S1x128 ![1] bcast_S128_S1x128_1) : (⟨S128, .f32⟩ : BufTy).Contents (Elt F) → (⟨S1x128, .f32⟩ : BufTy).Contents (Elt F)),
    StableHlo.nullary main_call0_cst_0 (constant S_ .f32 0x47435000#32 : (⟨S_, .f32⟩ : BufTy).Contents (Elt F)),
    StableHlo.unary main_call0_cst_0 main_call0_v2 ((broadcastInDim S1x128 ![] bcast_S_S1x128) : (⟨S_, .f32⟩ : BufTy).Contents (Elt F) → (⟨S1x128, .f32⟩ : BufTy).Contents (Elt F)),
    StableHlo.binary main_call0_v1 main_call0_v2 main_call0_v3 ((Host.divf) : (⟨S1x128, .f32⟩ : BufTy).Contents (Elt F) → (⟨S1x128, .f32⟩ : BufTy).Contents (Elt F) → (⟨S1x128, .f32⟩ : BufTy).Contents (Elt F)),
    StableHlo.unary main_call0_v3 main_call0_v4 ((broadcastInDim S50000x128 ![0, 1] bcast_S1x128_S50000x128_0_1) : (⟨S1x128, .f32⟩ : BufTy).Contents (Elt F) → (⟨S50000x128, .f32⟩ : BufTy).Contents (Elt F)),
    StableHlo.binary main_v16 main_call0_v4 main_call0_v5 ((subf) : (⟨S50000x128, .f32⟩ : BufTy).Contents (Elt F) → (⟨S50000x128, .f32⟩ : BufTy).Contents (Elt F) → (⟨S50000x128, .f32⟩ : BufTy).Contents (Elt F)),
    StableHlo.binary main_call0_v5 main_call0_v5 main_call0_v6 ((mulf) : (⟨S50000x128, .f32⟩ : BufTy).Contents (Elt F) → (⟨S50000x128, .f32⟩ : BufTy).Contents (Elt F) → (⟨S50000x128, .f32⟩ : BufTy).Contents (Elt F)),
    StableHlo.unary main_c_3 main_call0_v7 ((sitofp .f32) : (⟨S_, .i32⟩ : BufTy).Contents (Elt F) → (⟨S_, .f32⟩ : BufTy).Contents (Elt F)),
    StableHlo.nullary main_call0_cst_1 (constant S_ .f32 0x47435000#32 : (⟨S_, .f32⟩ : BufTy).Contents (Elt F)),
    StableHlo.binary main_call0_cst_1 main_call0_v7 main_call0_v8 ((subf) : (⟨S_, .f32⟩ : BufTy).Contents (Elt F) → (⟨S_, .f32⟩ : BufTy).Contents (Elt F) → (⟨S_, .f32⟩ : BufTy).Contents (Elt F)),
    StableHlo.nullary main_call0_cst_2 (constant S_ .f32 0x00000000#32 : (⟨S_, .f32⟩ : BufTy).Contents (Elt F)),
    StableHlo.binary main_call0_v6 main_call0_cst_2 main_call0_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call0_v8 main_call0_v10 ((broadcastInDim S128 ![] bcast_S_S128) : (⟨S_, .f32⟩ : BufTy).Contents (Elt F) → (⟨S128, .f32⟩ : BufTy).Contents (Elt F)),
    StableHlo.binary main_call0_v9 main_call0_v10 main_call0_v11 ((Host.divf) : (⟨S128, .f32⟩ : BufTy).Contents (Elt F) → (⟨S128, .f32⟩ : BufTy).Contents (Elt F) → (⟨S128, .f32⟩ : BufTy).Contents (Elt F)),
    StableHlo.nullary main_call0_cst_3 (constant S_ .f32 0x00000000#32 : (⟨S_, .f32⟩ : BufTy).Contents (Elt F)),
    StableHlo.binary main_call0_v8 main_call0_cst_3 main_call0_v12 ((cmpf .ogt) : (⟨S_, .f32⟩ : BufTy).Contents (Elt F) → (⟨S_, .f32⟩ : BufTy).Contents (Elt F) → (⟨S_, .i1⟩ : BufTy).Contents (Elt F)),
    StableHlo.nullary main_call0_cst_4 (constant S_ .f32 0x7FC00000#32 : (⟨S_, .f32⟩ : BufTy).Contents (Elt F)),
    StableHlo.unary main_call0_cst_4 main_call0_call0_v0 ((id) : (⟨S_, .f32⟩ : BufTy).Contents (Elt F) → (⟨S_, .f32⟩ : BufTy).Contents (Elt F)),
    StableHlo.unary main_call0_call0_v0 main_call0_call0_v1 ((broadcastInDim S128 ![] bcast_S_S128) : (⟨S_, .f32⟩ : BufTy).Contents (Elt F) → (⟨S128, .f32⟩ : BufTy).Contents (Elt F)),
    StableHlo.ternary main_call0_v12 main_call0_v11 main_call0_call0_v1 main_v20 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v19 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S50000x128 ![0, 1] bcast_S1x128_S50000x128_0_1 : (⟨S1x128, .f32⟩ : BufTy).Contents (Elt F) → (⟨S50000x128, .f32⟩ : BufTy).Contents (Elt F)),
    StableHlo.binary main_v16 main_v22 main_v23 (subf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v24 (broadcastInDim S128 ![] bcast_S_S128 : (⟨S_, .f32⟩ : BufTy).Contents (Elt F) → (⟨S128, .f32⟩ : BufTy).Contents (Elt F)),
    StableHlo.binary main_v20 main_v24 main_v25 (addf : (⟨S128, .f32⟩ : BufTy).Contents (Elt F) → (⟨S128, .f32⟩ : BufTy).Contents (Elt F) → (⟨S128, .f32⟩ : BufTy).Contents (Elt F)),
    StableHlo.unary main_v25 main_v26 (Host.rsqrt : (⟨S128, .f32⟩ : BufTy).Contents (Elt F) → (⟨S128, .f32⟩ : BufTy).Contents (Elt F)),
    StableHlo.unary main_v26 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S50000x128 ![0, 1] bcast_S1x128_S50000x128_0_1 : (⟨S1x128, .f32⟩ : BufTy).Contents (Elt F) → (⟨S50000x128, .f32⟩ : BufTy).Contents (Elt F)),
    StableHlo.binary main_v23 main_v28 main_v29 (mulf : (⟨S50000x128, .f32⟩ : BufTy).Contents (Elt F) → (⟨S50000x128, .f32⟩ : BufTy).Contents (Elt F) → (⟨S50000x128, .f32⟩ : BufTy).Contents (Elt F)),
    StableHlo.unary main_arg3 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S50000x128 ![0, 1] bcast_S1x128_S50000x128_0_1 : (⟨S1x128, .f32⟩ : BufTy).Contents (Elt F) → (⟨S50000x128, .f32⟩ : BufTy).Contents (Elt F)),
    StableHlo.binary main_v29 main_v31 main_v32 (mulf : (⟨S50000x128, .f32⟩ : BufTy).Contents (Elt F) → (⟨S50000x128, .f32⟩ : BufTy).Contents (Elt F) → (⟨S50000x128, .f32⟩ : BufTy).Contents (Elt F)),
    StableHlo.unary main_arg4 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S50000x128 ![0, 1] bcast_S1x128_S50000x128_0_1 : (⟨S1x128, .f32⟩ : BufTy).Contents (Elt F) → (⟨S50000x128, .f32⟩ : BufTy).Contents (Elt F)),
    StableHlo.binary main_v32 main_v34 main_v35 (addf : (⟨S50000x128, .f32⟩ : BufTy).Contents (Elt F) → (⟨S50000x128, .f32⟩ : BufTy).Contents (Elt F) → (⟨S50000x128, .f32⟩ : BufTy).Contents (Elt F)),
    StableHlo.nullary main_call1_cst (constant S_ .f32 0x00000000#32 : (⟨S_, .f32⟩ : BufTy).Contents (Elt F)),
    StableHlo.unary main_call1_cst main_call1_v0 ((broadcastInDim S50000x128 ![] bcast_S_S50000x128) : (⟨S_, .f32⟩ : BufTy).Contents (Elt F) → (⟨S50000x128, .f32⟩ : BufTy).Contents (Elt F)),
    StableHlo.binary main_v35 main_call1_v0 main_v36 ((maximumf) : (⟨S50000x128, .f32⟩ : BufTy).Contents (Elt F) → (⟨S50000x128, .f32⟩ : BufTy).Contents (Elt F) → (⟨S50000x128, .f32⟩ : BufTy).Contents (Elt F)),
    StableHlo.binary main_arg0 main_v36 main_v37 (addf : (⟨S50000x128, .f32⟩ : BufTy).Contents (Elt F) → (⟨S50000x128, .f32⟩ : BufTy).Contents (Elt F) → (⟨S50000x128, .f32⟩ : BufTy).Contents (Elt F)) ]

set_option maxRecDepth 4096 in
/-- The program is that straight line: the three functions unfolded at their calls, sequencing reassociated. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩

end Ops

/-! ## The result as one term -/

/-- A per-channel vector spread over every node: `v[h]` at `(n, h)`. -/
def rows (v : FVec Ideal S128 .f32) : FVec Ideal S50000x128 .f32 :=
  broadcastInDim S50000x128 ![0, 1] bcast_S1x128_S50000x128_0_1 (broadcastInDim S1x128 ![1] bcast_S128_S1x128_1 v)

/-- `x = agg + bias`: the array that is normalised. -/
def xR (a0 : FVec Ideal S50000x128 .f32) (a1 : FVec Ideal S128x128 .f32) (a2 : FVec Ideal S128 .f32)
    (a5 : FVec Ideal S800000 .f32) (a6 a7 : IVec S800000 32) : FVec Ideal S50000x128 .f32 :=
  addf (Cert.Spec.aggOf (Host.dotGeneral (F := Ideal) (φ₁ := .f32) (φ₂ := .f32) dot_S50000x128_S128x128_S50000x128_1_0_0_1_n_n none a0 a1) a5 a6 a7) (rows a2)

/-- The per-channel mean: the sum over the nodes divided by `N`. -/
def meanR (x : FVec Ideal S50000x128 .f32) : FVec Ideal S128 .f32 :=
  Host.divf (Host.reduceAdd x (constant (F := Ideal) S_ .f32 0x00000000#32) reducesTo_S50000x128_S128_d0 h_S_)
    (broadcastInDim S128 ![] bcast_S_S128 (constant (F := Ideal) S_ .f32 0x47435000#32))

/-- The mean as the variance computes it again: on a `1 × 128` row, then spread over the nodes. -/
def meanRow (x : FVec Ideal S50000x128 .f32) : FVec Ideal S50000x128 .f32 :=
  broadcastInDim S50000x128 ![0, 1] bcast_S1x128_S50000x128_0_1
    (Host.divf (broadcastInDim S1x128 ![1] bcast_S128_S1x128_1 (Host.reduceAdd x (constant (F := Ideal) S_ .f32 0x00000000#32) reducesTo_S50000x128_S128_d0 h_S_))
      (broadcastInDim S1x128 ![] bcast_S_S1x128 (constant (F := Ideal) S_ .f32 0x47435000#32)))

/-- The variance's denominator: `N` minus the (zero) correction, the correction an integer converted. -/
def denR : FVec Ideal S_ .f32 :=
  subf (constant (F := Ideal) S_ .f32 0x47435000#32) (sitofp (F := Ideal) .f32 (constantI S_ 32 0#32))

/-- The per-channel variance: the mean of the squared deviations, guarded by a positive denominator. -/
def varR (x : FVec Ideal S50000x128 .f32) : FVec Ideal S128 .f32 :=
  select (broadcastInDim S128 ![] bcast_S_S128 (cmpf .ogt denR (constant (F := Ideal) S_ .f32 0x00000000#32)))
    (Host.divf (Host.reduceAdd (mulf (subf x (meanRow x)) (subf x (meanRow x))) (constant (F := Ideal) S_ .f32 0x00000000#32) reducesTo_S50000x128_S128_d0 h_S_)
      (broadcastInDim S128 ![] bcast_S_S128 denR))
    (broadcastInDim S128 ![] bcast_S_S128 (id (constant (F := Ideal) S_ .f32 0x7FC00000#32)))

/-- The normalised, scaled, shifted, rectified array added to the features. -/
def outOf (a0 x : FVec Ideal S50000x128 .f32) (a3 a4 : FVec Ideal S128 .f32) : FVec Ideal S50000x128 .f32 :=
  addf a0 (maximumf
    (addf (mulf (mulf (subf x (rows (meanR x)))
        (rows (Host.rsqrt (addf (varR x) (broadcastInDim S128 ![] bcast_S_S128 (constant (F := Ideal) S_ .f32 0x3727C5AC#32))))))
      (rows a3)) (rows a4))
    (broadcastInDim S50000x128 ![] bcast_S_S50000x128 (constant (F := Ideal) S_ .f32 0x00000000#32)))

/-- The reference's result as one term of its eight arguments. -/
def refOut (a0 : FVec Ideal S50000x128 .f32) (a1 : FVec Ideal S128x128 .f32) (a2 a3 a4 : FVec Ideal S128 .f32)
    (a5 : FVec Ideal S800000 .f32) (a6 a7 : IVec S800000 32) : FVec Ideal S50000x128 .f32 :=
  outOf a0 (xR a0 a1 a2 a5 a6 a7) a3 a4

section Fold
attribute [local irreducible] Host.reduceAdd Host.gather Host.scatterAdd

/-- The fold of the operations at the result buffer is `refOut` of the arguments' contents. -/
theorem out_eq (V : Valuation τ sig (Elt Ideal)) :
    after (ops (F := Ideal)) V (Proc.devRef (τ := τ) .tc main_v37)
      = refOut (V (Proc.devRef (τ := τ) .tc main_arg0)) (V (Proc.devRef (τ := τ) .tc main_arg1)) (V (Proc.devRef (τ := τ) .tc main_arg2)) (V (Proc.devRef (τ := τ) .tc main_arg3))
          (V (Proc.devRef (τ := τ) .tc main_arg4)) (V (Proc.devRef (τ := τ) .tc main_arg5)) (V (Proc.devRef (τ := τ) .tc main_arg6)) (V (Proc.devRef (τ := τ) .tc main_arg7)) := by
  after_results_simp
  rfl

theorem arg0_eq (V : Valuation τ sig (Elt Ideal)) :
    after (ops (F := Ideal)) V (Proc.devRef (τ := τ) .tc main_arg0) = V (Proc.devRef (τ := τ) .tc main_arg0) := by
  after_results_simp

theorem arg1_eq (V : Valuation τ sig (Elt Ideal)) :
    after (ops (F := Ideal)) V (Proc.devRef (τ := τ) .tc main_arg1) = V (Proc.devRef (τ := τ) .tc main_arg1) := by
  after_results_simp

theorem arg2_eq (V : Valuation τ sig (Elt Ideal)) :
    after (ops (F := Ideal)) V (Proc.devRef (τ := τ) .tc main_arg2) = V (Proc.devRef (τ := τ) .tc main_arg2) := by
  after_results_simp

theorem arg3_eq (V : Valuation τ sig (Elt Ideal)) :
    after (ops (F := Ideal)) V (Proc.devRef (τ := τ) .tc main_arg3) = V (Proc.devRef (τ := τ) .tc main_arg3) := by
  after_results_simp

theorem arg4_eq (V : Valuation τ sig (Elt Ideal)) :
    after (ops (F := Ideal)) V (Proc.devRef (τ := τ) .tc main_arg4) = V (Proc.devRef (τ := τ) .tc main_arg4) := by
  after_results_simp

theorem arg5_eq (V : Valuation τ sig (Elt Ideal)) :
    after (ops (F := Ideal)) V (Proc.devRef (τ := τ) .tc main_arg5) = V (Proc.devRef (τ := τ) .tc main_arg5) := by
  after_results_simp

theorem arg6_eq (V : Valuation τ sig (Elt Ideal)) :
    after (ops (F := Ideal)) V (Proc.devRef (τ := τ) .tc main_arg6) = V (Proc.devRef (τ := τ) .tc main_arg6) := by
  after_results_simp

theorem arg7_eq (V : Valuation τ sig (Elt Ideal)) :
    after (ops (F := Ideal)) V (Proc.devRef (τ := τ) .tc main_arg7) = V (Proc.devRef (τ := τ) .tc main_arg7) := by
  after_results_simp

end Fold

/-- Every weakly fair execution of the reference terminates with its result at `refOut` of the arguments, which end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v37) = refOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun _ h c => ⟨(h c main_v37).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _)⟩)
    (run_seq scopedRefs_eq scopedSems_eq defs main (fun _ => ops) main_eq (fun _ => ops_sub) m ρ)

end Cert.ReferenceIdeal.RefRun

end
-- ==== Proof.RefValue.lean ====
/-
  The reference's term read at an index: it is the result with the variance spelled E[(x − μ)²].
-/
import proofs.«131209_j3770981286190_1_alg».proof.Proof.RefRun
import proofs.«131209_j3770981286190_1_alg».proof.Proof.Spec
import Idealize.ShloMosaic.Lib.ValueLayout
import Idealize.ShloMosaic.PureOps.Ideal.Laws

set_option maxRecDepth 16384

noncomputable section

open scoped BigOperators

namespace Cert.ReferenceIdeal.RefRun

open Idealize.ShloMosaic Idealize.ShloMosaic.ValueIdx Idealize.SL.Sem Cert.ReferenceIdeal
open Cert.ReferenceIdeal.Facts₀

/-! ## Reading the stages at an index -/

/-- A channel vector placed on a one-row array reads its channel. -/
theorem bc1_apply (v : FVec Ideal S128 .f32) (k : S1x128.Idx) :
    broadcastInDim S1x128 ![1] bcast_S128_S1x128_1 v k = v (ix1 (k 1)) := by
  unfold broadcastInDim
  exact congrArg v (funext fun a => by match a with | ⟨0, _⟩ => rfl)

/-- A one-row array spread over the nodes reads its row at the channel. -/
theorem bc2_apply (w : FVec Ideal S1x128 .f32) (j : S50000x128.Idx) :
    broadcastInDim S50000x128 ![0, 1] bcast_S1x128_S50000x128_0_1 w j = w (ix2 0 (j 1)) := by
  unfold broadcastInDim
  exact congrArg w (funext fun a => by match a with | ⟨0, _⟩ => rfl | ⟨1, _⟩ => rfl)

/-- A channel vector spread over the nodes reads `v[h]` at `(n, h)`. -/
theorem rows_apply (v : FVec Ideal S128 .f32) (j : S50000x128.Idx) : rows v j = v (ix1 (j 1)) := by
  unfold rows; rw [bc2_apply, bc1_apply]

/-- The host sum over the node axis from the zero initial value is the plain sum over the nodes. -/
theorem sum0_apply (x : FVec Ideal S50000x128 .f32) (h : Fin 128) :
    Host.reduceAdd x (constant (F := Ideal) S_ .f32 0x00000000#32) reducesTo_S50000x128_S128_d0 h_S_ (ix1 h)
      = ∑ n' : Fin 50000, x (ix2 n' h) := by
  have hR : S50000x128.Reduces [0] S128 := by decide
  unfold Host.reduceAdd
  rw [Ideal.hostReduceAdd_def, Ideal.hostReduceAdd_single _ hR, constant_apply, Ideal.ofBits_zero_f32, zero_add]
  refine Finset.sum_congr rfl fun k _ => congrArg x ?_
  funext a
  match a with
  | ⟨0, _⟩ => exact Fin.ext rfl
  | ⟨1, _⟩ => exact Fin.ext rfl

/-- The mean at channel `h`: the sum over the nodes divided by `N`. -/
theorem meanR_apply (x : FVec Ideal S50000x128 .f32) (h : Fin 128) :
    meanR x (ix1 h) = Ideal.div (∑ n' : Fin 50000, x (ix2 n' h)) Cert.Spec.cN := by
  unfold meanR Host.divf
  rw [Ideal.hostDivf_def, sum0_apply]
  rfl

/-- `rows_apply` at an index given by its two coordinates. -/
theorem rows_apply2 (v : FVec Ideal S128 .f32) (n : Fin 50000) (h : Fin 128) : rows v (ix2 n h) = v (ix1 h) :=
  rows_apply v (ix2 n h)

/-- The variance's own copy of the mean, read at `(n, h)`: the same quotient. -/
theorem meanRow_apply (x : FVec Ideal S50000x128 .f32) (n : Fin 50000) (h : Fin 128) :
    meanRow x (ix2 n h) = Ideal.div (∑ n' : Fin 50000, x (ix2 n' h)) Cert.Spec.cN := by
  unfold meanRow
  rw [bc2_apply]
  unfold Host.divf
  rw [Ideal.hostDivf_def, bc1_apply]
  show Ideal.div (Host.reduceAdd x (constant (F := Ideal) S_ .f32 0x00000000#32) reducesTo_S50000x128_S128_d0 h_S_ (ix1 h)) _ = _
  rw [sum0_apply]
  rfl

/-- The denominator is `N`: the correction is the integer zero, converted exactly. -/
theorem denR_apply (i : S_.Idx) : denR i = Cert.Spec.cN := by
  unfold denR
  rw [subf_apply, constant_apply, sitofp_apply]
  show Ideal.ofBits .f32 0x47435000#32 - (((0#32 : BitVec 32).toInt : ℝ) : EReal) = Cert.Spec.cN
  have h0 : (0#32 : BitVec 32).toInt = 0 := by decide
  rw [h0, Int.cast_zero, EReal.coe_zero, sub_zero]
  rfl

/-- The guard holds, since `N = 50000 > 0`: the variance is never replaced. -/
theorem guard_apply (i : S128.Idx) :
    broadcastInDim S128 ![] bcast_S_S128 (cmpf .ogt denR (constant (F := Ideal) S_ .f32 0x00000000#32)) i = 1#1 := by
  show FloatOps.cmpf .ogt (denR _) (constant (F := Ideal) S_ .f32 0x00000000#32 _) = 1#1
  rw [denR_apply, constant_apply, Ideal.ofBits_zero_f32, Ideal.cmpf_def, Cert.Spec.cN_eq]
  unfold Ideal.cmp
  have : (0 : EReal) < ((50000 : ℝ) : EReal) := by
    rw [← EReal.coe_zero, EReal.coe_lt_coe_iff]; norm_num
  simp [this]

/-- The variance at channel `h`: the mean of the squared deviations from the mean. -/
theorem varR_apply (x : FVec Ideal S50000x128 .f32) (h : Fin 128) :
    varR x (ix1 h)
      = Ideal.div (∑ n' : Fin 50000, (x (ix2 n' h) - Ideal.div (∑ n'' : Fin 50000, x (ix2 n'' h)) Cert.Spec.cN)
          * (x (ix2 n' h) - Ideal.div (∑ n'' : Fin 50000, x (ix2 n'' h)) Cert.Spec.cN)) Cert.Spec.cN := by
  unfold varR
  rw [select_apply, guard_apply, select_one]
  unfold Host.divf
  rw [Ideal.hostDivf_def, sum0_apply]
  show Ideal.div _ (denR _) = _
  rw [denR_apply]
  refine congrArg (fun s => Ideal.div s Cert.Spec.cN) (Finset.sum_congr rfl fun n' _ => ?_)
  rw [mulf_apply, subf_apply, meanRow_apply]

/-- `x = agg + bias` is the specification's `xOf`. -/
theorem xR_eq (a0 : FVec Ideal S50000x128 .f32) (a1 : FVec Ideal S128x128 .f32) (a2 : FVec Ideal S128 .f32)
    (a5 : FVec Ideal S800000 .f32) (a6 a7 : IVec S800000 32) :
    xR a0 a1 a2 a5 a6 a7 = Cert.Spec.xOf a0 a1 a2 a5 a6 a7 := by
  funext j
  unfold xR Cert.Spec.xOf
  rw [addf_apply, rows_apply]

/-- The last stage read at `(n, h)` is `outR` over any `x`. -/
theorem outOf_apply (a0 x : FVec Ideal S50000x128 .f32) (a3 a4 : FVec Ideal S128 .f32) (n : Fin 50000) (h : Fin 128) :
    outOf a0 x a3 a4 (ix2 n h) = Cert.Spec.outR a0 x (fun h' => a3 (ix1 h')) (fun h' => a4 (ix1 h')) n h := by
  unfold outOf Cert.Spec.outR
  rw [addf_apply, maximumf_apply, addf_apply, mulf_apply, mulf_apply, subf_apply, rows_apply2, rows_apply2, rows_apply2, rows_apply2,
    meanR_apply]
  unfold Host.rsqrt
  rw [Ideal.hostUnary_rsqrt_def, addf_apply, varR_apply]
  have hz : broadcastInDim S50000x128 ![] bcast_S_S50000x128 (constant (F := Ideal) S_ .f32 0x00000000#32) (ix2 n h) = 0 :=
    Ideal.ofBits_zero_f32
  rw [hz]
  rfl

/-- At node `n`, channel `h` the reference's result is `outR` of the features, `x = agg + bias`, γ and β. -/
theorem refOut_apply (a0 : FVec Ideal S50000x128 .f32) (a1 : FVec Ideal S128x128 .f32) (a2 a3 a4 : FVec Ideal S128 .f32)
    (a5 : FVec Ideal S800000 .f32) (a6 a7 : IVec S800000 32) (n : Fin 50000) (h : Fin 128) :
    refOut a0 a1 a2 a3 a4 a5 a6 a7 (ix2 n h)
      = Cert.Spec.outR a0 (Cert.Spec.xOf a0 a1 a2 a5 a6 a7) (fun h' => a3 (ix1 h')) (fun h' => a4 (ix1 h')) n h := by
  unfold refOut
  rw [outOf_apply, xR_eq]

end Cert.ReferenceIdeal.RefRun

end
-- ==== Proof.lean ====
/-
  The certificate: a graph-convolution layer with batch normalisation, ReLU and a residual, computed by three
  pipelined kernels with host operations between them, against its plain reference.

  Both programs compute `feature + max(((x − μ) · (var + ε)^(-1/2)) · γ + β, 0)` with `x = agg + bias`,
  `agg` the edge-weighted sum of rows of `feature · weight` into their target rows, and `μ`, `var` the
  per-channel mean and (biased) variance of `x` over the nodes. The aggregation is the same chain of host
  operations in both and is carried as one function. The matrix product is tiled by rows in the kernel and whole in
  the reference: the same contraction at the ideal instance. The statistics are accumulated block by block in
  the kernel: a sum in another order. The one real difference is the variance, `E[x²] − μ²` against
  `E[(x − μ)²]`: equal over the reals, and on the extended reals equal because the precondition makes every input,
  hence every `x`, finite.
-/
import proofs.«131209_j3770981286190_1_alg».proof.Defs
import proofs.«131209_j3770981286190_1_alg».proof.Proof.Gen.Kernel
import proofs.«131209_j3770981286190_1_alg».proof.Proof.Gen.Kernel.Frame
import proofs.«131209_j3770981286190_1_alg».proof.Proof.Gen.KernelIdeal
import proofs.«131209_j3770981286190_1_alg».proof.Proof.Gen.KernelIdeal.Frame
import proofs.«131209_j3770981286190_1_alg».proof.Proof.Gen.ReferenceIdeal
import proofs.«131209_j3770981286190_1_alg».proof.Proof.Gen.Pre_finite_inputs
import proofs.«131209_j3770981286190_1_alg».proof.Proof.Spec
import proofs.«131209_j3770981286190_1_alg».proof.Proof.Law
import proofs.«131209_j3770981286190_1_alg».proof.Proof.Finite
import proofs.«131209_j3770981286190_1_alg».proof.Proof.KRun
import proofs.«131209_j3770981286190_1_alg».proof.Proof.KHost
import proofs.«131209_j3770981286190_1_alg».proof.Proof.RefRun
import proofs.«131209_j3770981286190_1_alg».proof.Proof.RefValue
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The word-level kernel program terminates without a fault and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a host program: its run, with the result dropped. -/
theorem frame_ri : Cert.frame_ReferenceIdeal := fun m ρ _ =>
  (θ_run Cert.ReferenceIdeal.defs _ _).mono (fun _ h c => (h c).2) (Cert.ReferenceIdeal.RefRun.run m ρ)

/-- The two idealized programs end with equal results: the kernel program's is `outK` of the launched arrays, the
    reference's `outR` of the same arrays, and the two agree because `x` is finite under the precondition. -/
theorem algebraic : Cert.algebraic_KernelIdeal_ReferenceIdeal := by
  intro m ρ m' ρ' hpre hagree
  refine ⟨fun c => Cert.KernelIdeal.KValue.resultA m ρ c, Cert.KernelIdeal.Gen.run_named m ρ, ?_⟩
  refine (θ_run Cert.ReferenceIdeal.defs _ _).mono (fun r h c => ⟨(h c).1.trans ?_, (h c).2⟩)
    (Cert.ReferenceIdeal.RefRun.run m' ρ')
  obtain ⟨h0, h1, h2, h3, h4, h5, h6, h7⟩ := hagree c
  rw [h0, h1, h2, h3, h4, h5, h6, h7]
  obtain ⟨f0, f1, f2, f5⟩ := Cert.Spec.finite_of_pre m hpre c
  funext j
  obtain ⟨n, h, rfl⟩ : ∃ (n : Fin 50000) (h : Fin 128), j = ix2 n h := ⟨j 0, j 1, eq_ix2 j⟩
  refine (Cert.ReferenceIdeal.RefRun.refOut_apply _ _ _ _ _ _ _ _ n h).trans ?_
  refine (Cert.Spec.outK_eq_outR _ _ _ _ (Cert.Spec.xOf_finite _ _ _ _ _ _ f0 f1 f2 f5) n h).symm.trans ?_
  exact (Cert.KernelIdeal.KValue.kernel_value m ρ c n h).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
